-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : IVec S8192 32) (main_arg1 : FVec F S8192x512 .f32) (main_arg2 : FVec F S8192x512 .f32) : IVec S_ 1 :=
  let main_v0 : FVec F S8192x512 .f32 := Host.absf main_arg1
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg2
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192 : Shape := ⟨1, ![8192]⟩
abbrev S8192x512 : Shape := ⟨2, ![8192, 512]⟩
abbrev S8192x1 : Shape := ⟨2, ![8192, 1]⟩
abbrev S1x8192 : Shape := ⟨2, ![1, 8192]⟩
abbrev S_ : Shape := ⟨0, ![]⟩
abbrev S8192x8192 : Shape := ⟨2, ![8192, 8192]⟩
abbrev S512x1 : Shape := ⟨2, ![512, 1]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S2048x512 : Shape := ⟨2, ![2048, 512]⟩

abbrev nBuf : Space → Nat
  | .hbm => 24
  | .vmem => 14
  | .smem => 0
  | _ => 0

abbrev bufTy : (tb : Table) → Fin (tcTables nBuf tb) → BufTy
  | .hbm, ⟨0, _⟩ => ⟨S8192, .i32⟩
  | .hbm, ⟨1, _⟩ => ⟨S8192x512, .f32⟩
  | .hbm, ⟨2, _⟩ => ⟨S8192x512, .f32⟩
  | .hbm, ⟨3, _⟩ => ⟨S8192x1, .i32⟩
  | .hbm, ⟨4, _⟩ => ⟨S1x8192, .i32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x512, .f32⟩
  | .hbm, ⟨14, _⟩ => ⟨S8192x512, .f32⟩
  | .hbm, ⟨15, _⟩ => ⟨S8192x512, .bf16⟩
  | .hbm, ⟨16, _⟩ => ⟨S8192x8192, .f32⟩
  | .hbm, ⟨17, _⟩ => ⟨S8192x1, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S512x1, .i32⟩
  | .local _ .vmem, ⟨1, _⟩ => ⟨S512x1, .i32⟩
  | .local _ .vmem, ⟨2, _⟩ => ⟨S1x2048, .i32⟩
  | .local _ .vmem, ⟨3, _⟩ => ⟨S1x2048, .i32⟩
  | .local _ .vmem, ⟨4, _⟩ => ⟨S512x512, .f32⟩
  | .local _ .vmem, ⟨5, _⟩ => ⟨S512x512, .f32⟩
  | .local _ .vmem, ⟨6, _⟩ => ⟨S8192x512, .bf16⟩
  | .local _ .vmem, ⟨7, _⟩ => ⟨S512x2048, .f32⟩
  | .local _ .vmem, ⟨8, _⟩ => ⟨S512x2048, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x512, .bf16⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v4 : BitVec 32 := Scalar.muli arg1 c2048_i32
  v4
def k0_off1 (i : grid0.Coords) : Fin 2 → Nat :=
  let arg1 : BitVec 32 := BitVec.ofNat 32 (i 1).val
  let c2048_i32 : BitVec 32 := 2048#32
  let v4 : BitVec 32 := Scalar.muli arg1 c2048_i32
  let v5 : BitVec 32 := v4
  let v6 : Index := Scalar.indexCast v5
  let c0_2 : Index := 0#32
  ![v6.toNat, 0]
def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_21 : BitVec 32 := 0#32
  let v39 : BitVec 1 := Scalar.cmpi .ne v38 c0_i32_21
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8192x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  shapeCasts_S512x512_S512x512 : S512x512.ShapeCasts S512x512
  packedbf16_S512x512_S512x512_0_0 : (Rect.unit (s := S512x512) ![0, 0] S512x512.size inb_S512x512_S512x512_0_0).PackedRows (EltTy.packing .bf16)
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  shapeCasts_S8192x1_S8192 : S8192x1.ShapeCasts S8192
  reducesTo_S8192_S_d0 : S8192.ReducesTo [0] S_
  dot_S512x512_S2048x512_S512x2048_1_1_0_0_n_n_wf : DotDims.WF S512x512 S2048x512 S512x2048 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .i32 = 32 ∨ (Rect.block (s := S8192x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .i32 = 32 ∨ (Rect.block (s := S1x8192) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x512.size a ≤ S8192x512.size a
  hwx0_3 : ∀ i : grid0.Coords, EltTy.bits .bf16 = 32 ∨ (Rect.block (s := S8192x512) S8192x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x8192.size a
  hwx0_4 : ∀ i : grid0.Coords, EltTy.bits .f32 = 32 ∨ (Rect.block (s := S8192x8192) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S8192x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192 : Shape := ⟨1, ![8192]⟩
abbrev S8192x512 : Shape := ⟨2, ![8192, 512]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x1, .i32⟩
  | .hbm, ⟨28, _⟩ => ⟨S1x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Pieces.lean ====
/-
  What the kernel body leaves, case by case, as values.  The body has three control cases over the inner grid
  coordinate j: the first column block of a row block (j = 0: reset both accumulators, normalise the raw row block
  into the cached copy), a middle one (0 < j < 3), and the last (j = 3: also write the row losses).  In every case it
  takes the cached normalised rows `a` (freshly made when j = 0), the 2048 rows `b` of the resident normalised
  array that start at row 2048·j, and leaves
     the cosine tile            tile a b
     the denominator's sum      (what it held, or zero) + the tile's row sums of exp
     the numerator's sum        (what it held, or zero) + the tile's masked row sums of exp
  and, when j = 3, the row losses  log (numerator / denominator)  of the sums just left.
  Each statement is generic in the float instance: the found pieces are read back through the whole staging buffers.
-/
import proofs.«428366_j17231408791669_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

/-- The 2048 rows of the resident 8192×512 array the body loads at grid coordinates `i`: rows `2048·j` onward. -/
abbrev bsl (i : grid0.Coords) (x3 : Vec F S8192x512 .bf16) : Vec F S2048x512 .bf16 :=
  View.ld x3 (Rect.unit (s := S8192x512) (k0_off1 i) S2048x512.size (k0_off1_inb i))

/-! ## A middle column block -/

theorem tile_B (c : Dev nD) (i : grid0.Coords) (arg2 : Memref sig .tc .vmem S512x1 .i32) (harg2 : arg2.IsWhole) (arg3 : Memref sig .tc .vmem S1x2048 .i32) (harg3 : arg3.IsWhole) (arg4 : Memref sig .tc .vmem S512x512 .f32) (harg4 : arg4.IsWhole) (arg5 : Memref sig .tc .vmem S8192x512 .bf16) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .bf16) (harg10 : arg10.IsWhole) (hc0 : ¬cond0_0 i) (hc1 : ¬cond0_1 i) (x0 : Vec F S512x1 .i32) (x1 : Vec F S1x2048 .i32) (x2 : Vec F S512x512 .f32) (x3 : Vec F S8192x512 .bf16) (xs0 : Vec F S512x1 .f32) (xs1 : Vec F S512x1 .f32) (xs2 : Vec F S512x512 .bf16) :
    out0_B_4 c i arg2 harg2 arg3 harg3 arg4 harg4 arg5 harg5 arg6 harg6 arg7 harg7 arg8 harg8 arg9 harg9 arg10 harg10 hc0 hc1 x0 x1 x2 x3 xs0 xs1 xs2 = k0_pay6 xs2 (bsl i x3) := by
  unfold out0_B_4
  rw [View.read_writes_eq_canon _ _ _ (cover0_B_4 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero (S := S512x2048) hz]
  simp only [View.readAt_eq_ld, harg2.read_unread, harg3.read_unread, harg4.read_unread, harg5.read_unread, harg8.read_unread, harg9.read_unread, harg10.read_unread, View.ld_unit_zero (S := S512x1) hz, View.ld_unit_zero (S := S1x2048) hz, View.ld_unit_zero (S := S512x512) hz, View.readCov_unit_zero (S := S512x1) _ hz, View.readCov_unit_zero (S := S512x512) _ hz]
  rfl

theorem num_B (c : Dev nD) (i : grid0.Coords) (arg2 : Memref sig .tc .vmem S512x1 .i32) (harg2 : arg2.IsWhole) (arg3 : Memref sig .tc .vmem S1x2048 .i32) (harg3 : arg3.IsWhole) (arg4 : Memref sig .tc .vmem S512x512 .f32) (harg4 : arg4.IsWhole) (arg5 : Memref sig .tc .vmem S8192x512 .bf16) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .bf16) (harg10 : arg10.IsWhole) (hc0 : ¬cond0_0 i) (hc1 : ¬cond0_1 i) (x0 : Vec F S512x1 .i32) (x1 : Vec F S1x2048 .i32) (x2 : Vec F S512x512 .f32) (x3 : Vec F S8192x512 .bf16) (xs0 : Vec F S512x1 .f32) (xs1 : Vec F S512x1 .f32) (xs2 : Vec F S512x512 .bf16) :
    sout0_B_0 c i arg2 harg2 arg3 harg3 arg4 harg4 arg5 harg5 arg6 harg6 arg7 harg7 arg8 harg8 arg9 harg9 arg10 harg10 hc0 hc1 x0 x1 x2 x3 xs0 xs1 xs2 = k0_pay1 xs0 (k0_pay9 xs2 (bsl i x3) x0 x1) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero (S := S512x1) hz]
  simp only [View.readAt_eq_ld, harg2.read_unread, harg3.read_unread, harg4.read_unread, harg5.read_unread, harg8.read_unread, harg9.read_unread, harg10.read_unread, View.ld_unit_zero (S := S512x1) hz, View.ld_unit_zero (S := S1x2048) hz, View.ld_unit_zero (S := S512x512) hz, View.readCov_unit_zero (S := S512x1) _ hz, View.readCov_unit_zero (S := S512x512) _ hz]
  rfl

theorem den_B (c : Dev nD) (i : grid0.Coords) (arg2 : Memref sig .tc .vmem S512x1 .i32) (harg2 : arg2.IsWhole) (arg3 : Memref sig .tc .vmem S1x2048 .i32) (harg3 : arg3.IsWhole) (arg4 : Memref sig .tc .vmem S512x512 .f32) (harg4 : arg4.IsWhole) (arg5 : Memref sig .tc .vmem S8192x512 .bf16) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .bf16) (harg10 : arg10.IsWhole) (hc0 : ¬cond0_0 i) (hc1 : ¬cond0_1 i) (x0 : Vec F S512x1 .i32) (x1 : Vec F S1x2048 .i32) (x2 : Vec F S512x512 .f32) (x3 : Vec F S8192x512 .bf16) (xs0 : Vec F S512x1 .f32) (xs1 : Vec F S512x1 .f32) (xs2 : Vec F S512x512 .bf16) :
    sout0_B_1 c i arg2 harg2 arg3 harg3 arg4 harg4 arg5 harg5 arg6 harg6 arg7 harg7 arg8 harg8 arg9 harg9 arg10 harg10 hc0 hc1 x0 x1 x2 x3 xs0 xs1 xs2 = k0_pay8 xs2 (bsl i x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero (S := S512x1) hz]
  simp only [View.readAt_eq_ld, harg2.read_unread, harg3.read_unread, harg4.read_unread, harg5.read_unread, harg8.read_unread, harg9.read_unread, harg10.read_unread, View.ld_unit_zero (S := S512x1) hz, View.ld_unit_zero (S := S1x2048) hz, View.ld_unit_zero (S := S512x512) hz, View.readCov_unit_zero (S := S512x1) _ hz, View.readCov_unit_zero (S := S512x512) _ hz]
  rfl

/-! ## The last column block -/

theorem tile_C (c : Dev nD) (i : grid0.Coords) (arg2 : Memref sig .tc .vmem S512x1 .i32) (harg2 : arg2.IsWhole) (arg3 : Memref sig .tc .vmem S1x2048 .i32) (harg3 : arg3.IsWhole) (arg4 : Memref sig .tc .vmem S512x512 .f32) (harg4 : arg4.IsWhole) (arg5 : Memref sig .tc .vmem S8192x512 .bf16) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .bf16) (harg10 : arg10.IsWhole) (hc0 : ¬cond0_0 i) (hc1 : cond0_1 i) (x0 : Vec F S512x1 .i32) (x1 : Vec F S1x2048 .i32) (x2 : Vec F S512x512 .f32) (x3 : Vec F S8192x512 .bf16) (xs0 : Vec F S512x1 .f32) (xs1 : Vec F S512x1 .f32) (xs2 : Vec F S512x512 .bf16) :
    out0_C_4 c i arg2 harg2 arg3 harg3 arg4 harg4 arg5 harg5 arg6 harg6 arg7 harg7 arg8 harg8 arg9 harg9 arg10 harg10 hc0 hc1 x0 x1 x2 x3 xs0 xs1 xs2 = k0_pay6 xs2 (bsl i x3) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero (S := S512x2048) hz]
  simp only [View.readAt_eq_ld, harg2.read_unread, harg3.read_unread, harg4.read_unread, harg5.read_unread, harg8.read_unread, harg9.read_unread, harg10.read_unread, View.ld_unit_zero (S := S512x1) hz, View.ld_unit_zero (S := S1x2048) hz, View.ld_unit_zero (S := S512x512) hz, View.readCov_unit_zero (S := S512x1) _ hz, View.readCov_unit_zero (S := S512x512) _ hz]
  rfl

theorem num_C (c : Dev nD) (i : grid0.Coords) (arg2 : Memref sig .tc .vmem S512x1 .i32) (harg2 : arg2.IsWhole) (arg3 : Memref sig .tc .vmem S1x2048 .i32) (harg3 : arg3.IsWhole) (arg4 : Memref sig .tc .vmem S512x512 .f32) (harg4 : arg4.IsWhole) (arg5 : Memref sig .tc .vmem S8192x512 .bf16) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .bf16) (harg10 : arg10.IsWhole) (hc0 : ¬cond0_0 i) (hc1 : cond0_1 i) (x0 : Vec F S512x1 .i32) (x1 : Vec F S1x2048 .i32) (x2 : Vec F S512x512 .f32) (x3 : Vec F S8192x512 .bf16) (xs0 : Vec F S512x1 .f32) (xs1 : Vec F S512x1 .f32) (xs2 : Vec F S512x512 .bf16) :
    sout0_C_0 c i arg2 harg2 arg3 harg3 arg4 harg4 arg5 harg5 arg6 harg6 arg7 harg7 arg8 harg8 arg9 harg9 arg10 harg10 hc0 hc1 x0 x1 x2 x3 xs0 xs1 xs2 = k0_pay1 xs0 (k0_pay9 xs2 (bsl i x3) x0 x1) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero (S := S512x1) hz]
  simp only [View.readAt_eq_ld, harg2.read_unread, harg3.read_unread, harg4.read_unread, harg5.read_unread, harg8.read_unread, harg9.read_unread, harg10.read_unread, View.ld_unit_zero (S := S512x1) hz, View.ld_unit_zero (S := S1x2048) hz, View.ld_unit_zero (S := S512x512) hz, View.readCov_unit_zero (S := S512x1) _ hz, View.readCov_unit_zero (S := S512x512) _ hz]
  rfl

theorem den_C (c : Dev nD) (i : grid0.Coords) (arg2 : Memref sig .tc .vmem S512x1 .i32) (harg2 : arg2.IsWhole) (arg3 : Memref sig .tc .vmem S1x2048 .i32) (harg3 : arg3.IsWhole) (arg4 : Memref sig .tc .vmem S512x512 .f32) (harg4 : arg4.IsWhole) (arg5 : Memref sig .tc .vmem S8192x512 .bf16) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .bf16) (harg10 : arg10.IsWhole) (hc0 : ¬cond0_0 i) (hc1 : cond0_1 i) (x0 : Vec F S512x1 .i32) (x1 : Vec F S1x2048 .i32) (x2 : Vec F S512x512 .f32) (x3 : Vec F S8192x512 .bf16) (xs0 : Vec F S512x1 .f32) (xs1 : Vec F S512x1 .f32) (xs2 : Vec F S512x512 .bf16) :
    sout0_C_1 c i arg2 harg2 arg3 harg3 arg4 harg4 arg5 harg5 arg6 harg6 arg7 harg7 arg8 harg8 arg9 harg9 arg10 harg10 hc0 hc1 x0 x1 x2 x3 xs0 xs1 xs2 = k0_pay8 xs2 (bsl i x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero (S := S512x1) hz]
  simp only [View.readAt_eq_ld, harg2.read_unread, harg3.read_unread, harg4.read_unread, harg5.read_unread, harg8.read_unread, harg9.read_unread, harg10.read_unread, View.ld_unit_zero (S := S512x1) hz, View.ld_unit_zero (S := S1x2048) hz, View.ld_unit_zero (S := S512x512) hz, View.readCov_unit_zero (S := S512x1) _ hz, View.readCov_unit_zero (S := S512x512) _ hz]
  rfl

theorem loss_C (c : Dev nD) (i : grid0.Coords) (arg2 : Memref sig .tc .vmem S512x1 .i32) (harg2 : arg2.IsWhole) (arg3 : Memref sig .tc .vmem S1x2048 .i32) (harg3 : arg3.IsWhole) (arg4 : Memref sig .tc .vmem S512x512 .f32) (harg4 : arg4.IsWhole) (arg5 : Memref sig .tc .vmem S8192x512 .bf16) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .bf16) (harg10 : arg10.IsWhole) (hc0 : ¬cond0_0 i) (hc1 : cond0_1 i) (x0 : Vec F S512x1 .i32) (x1 : Vec F S1x2048 .i32) (x2 : Vec F S512x512 .f32) (x3 : Vec F S8192x512 .bf16) (xs0 : Vec F S512x1 .f32) (xs1 : Vec F S512x1 .f32) (xs2 : Vec F S512x512 .bf16) :
    out0_C_5 c i arg2 harg2 arg3 harg3 arg4 harg4 arg5 harg5 arg6 harg6 arg7 harg7 arg8 harg8 arg9 harg9 arg10 harg10 hc0 hc1 x0 x1 x2 x3 xs0 xs1 xs2
      = k0_pay2 (k0_pay1 xs0 (k0_pay9 xs2 (bsl i x3) x0 x1)) (k0_pay8 xs2 (bsl i x3) xs1) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero (S := S512x1) hz]
  simp only [View.readAt_eq_ld, harg2.read_unread, harg3.read_unread, harg4.read_unread, harg5.read_unread, harg8.read_unread, harg9.read_unread, harg10.read_unread, View.ld_unit_zero (S := S512x1) hz, View.ld_unit_zero (S := S1x2048) hz, View.ld_unit_zero (S := S512x512) hz, View.readCov_unit_zero (S := S512x1) _ hz, View.readCov_unit_zero (S := S512x512) _ hz]
  rfl

/-! ## The first column block -/

theorem cache_A (c : Dev nD) (i : grid0.Coords) (arg2 : Memref sig .tc .vmem S512x1 .i32) (harg2 : arg2.IsWhole) (arg3 : Memref sig .tc .vmem S1x2048 .i32) (harg3 : arg3.IsWhole) (arg4 : Memref sig .tc .vmem S512x512 .f32) (harg4 : arg4.IsWhole) (arg5 : Memref sig .tc .vmem S8192x512 .bf16) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .bf16) (harg10 : arg10.IsWhole) (hc0 : cond0_0 i) (hc1 : ¬cond0_1 i) (x0 : Vec F S512x1 .i32) (x1 : Vec F S1x2048 .i32) (x2 : Vec F S512x512 .f32) (x3 : Vec F S8192x512 .bf16) :
    sout0_A_2 c i arg2 harg2 arg3 harg3 arg4 harg4 arg5 harg5 arg6 harg6 arg7 harg7 arg8 harg8 arg9 harg9 arg10 harg10 hc0 hc1 x0 x1 x2 x3 = k0_pay5 x2 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero (S := S512x512) hz]
  simp only [View.readAt_eq_ld, harg2.read_unread, harg3.read_unread, harg4.read_unread, harg5.read_unread, harg8.read_unread, harg9.read_unread, harg10.read_unread, View.ld_unit_zero (S := S512x1) hz, View.ld_unit_zero (S := S1x2048) hz, View.ld_unit_zero (S := S512x512) hz, View.readCov_unit_zero (S := S512x1) _ hz, View.readCov_unit_zero (S := S512x512) _ hz]

theorem tile_A (c : Dev nD) (i : grid0.Coords) (arg2 : Memref sig .tc .vmem S512x1 .i32) (harg2 : arg2.IsWhole) (arg3 : Memref sig .tc .vmem S1x2048 .i32) (harg3 : arg3.IsWhole) (arg4 : Memref sig .tc .vmem S512x512 .f32) (harg4 : arg4.IsWhole) (arg5 : Memref sig .tc .vmem S8192x512 .bf16) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .bf16) (harg10 : arg10.IsWhole) (hc0 : cond0_0 i) (hc1 : ¬cond0_1 i) (x0 : Vec F S512x1 .i32) (x1 : Vec F S1x2048 .i32) (x2 : Vec F S512x512 .f32) (x3 : Vec F S8192x512 .bf16) :
    out0_A_4 c i arg2 harg2 arg3 harg3 arg4 harg4 arg5 harg5 arg6 harg6 arg7 harg7 arg8 harg8 arg9 harg9 arg10 harg10 hc0 hc1 x0 x1 x2 x3 = k0_pay6 (k0_pay5 x2) (bsl i x3) := by
  unfold out0_A_4
  rw [View.read_writes_eq_canon _ _ _ (cover0_A_4 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero (S := S512x2048) hz]
  simp only [View.readAt_eq_ld, harg2.read_unread, harg3.read_unread, harg4.read_unread, harg5.read_unread, harg8.read_unread, harg9.read_unread, harg10.read_unread, View.ld_unit_zero (S := S512x1) hz, View.ld_unit_zero (S := S1x2048) hz, View.ld_unit_zero (S := S512x512) hz, View.readCov_unit_zero (S := S512x1) _ hz, View.readCov_unit_zero (S := S512x512) _ hz]
  rfl

theorem num_A (c : Dev nD) (i : grid0.Coords) (arg2 : Memref sig .tc .vmem S512x1 .i32) (harg2 : arg2.IsWhole) (arg3 : Memref sig .tc .vmem S1x2048 .i32) (harg3 : arg3.IsWhole) (arg4 : Memref sig .tc .vmem S512x512 .f32) (harg4 : arg4.IsWhole) (arg5 : Memref sig .tc .vmem S8192x512 .bf16) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .bf16) (harg10 : arg10.IsWhole) (hc0 : cond0_0 i) (hc1 : ¬cond0_1 i) (x0 : Vec F S512x1 .i32) (x1 : Vec F S1x2048 .i32) (x2 : Vec F S512x512 .f32) (x3 : Vec F S8192x512 .bf16) :
    sout0_A_0 c i arg2 harg2 arg3 harg3 arg4 harg4 arg5 harg5 arg6 harg6 arg7 harg7 arg8 harg8 arg9 harg9 arg10 harg10 hc0 hc1 x0 x1 x2 x3 = k0_pay1 (k0_pay3 (F := F)) (k0_pay9 (k0_pay5 x2) (bsl i x3) x0 x1) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg8.read_unread, harg9.read_unread, harg10.read_unread, View.ld_unit_zero (S := S512x1) hz, View.ld_unit_zero (S := S1x2048) hz, View.ld_unit_zero (S := S512x512) hz, View.readCov_unit_zero (S := S512x1) _ hz, View.readCov_unit_zero (S := S512x512) _ hz]
  rfl

theorem den_A (c : Dev nD) (i : grid0.Coords) (arg2 : Memref sig .tc .vmem S512x1 .i32) (harg2 : arg2.IsWhole) (arg3 : Memref sig .tc .vmem S1x2048 .i32) (harg3 : arg3.IsWhole) (arg4 : Memref sig .tc .vmem S512x512 .f32) (harg4 : arg4.IsWhole) (arg5 : Memref sig .tc .vmem S8192x512 .bf16) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .bf16) (harg10 : arg10.IsWhole) (hc0 : cond0_0 i) (hc1 : ¬cond0_1 i) (x0 : Vec F S512x1 .i32) (x1 : Vec F S1x2048 .i32) (x2 : Vec F S512x512 .f32) (x3 : Vec F S8192x512 .bf16) :
    sout0_A_1 c i arg2 harg2 arg3 harg3 arg4 harg4 arg5 harg5 arg6 harg6 arg7 harg7 arg8 harg8 arg9 harg9 arg10 harg10 hc0 hc1 x0 x1 x2 x3 = k0_pay8 (k0_pay5 x2) (bsl i x3) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg8.read_unread, harg9.read_unread, harg10.read_unread, View.ld_unit_zero (S := S512x1) hz, View.ld_unit_zero (S := S1x2048) hz, View.ld_unit_zero (S := S512x512) hz, View.readCov_unit_zero (S := S512x1) _ hz, View.readCov_unit_zero (S := S512x512) _ hz]
  rfl

end Cert.KernelIdeal.Pieces

end
-- ==== Proof.Spec.lean ====
/-
  The mathematics both programs compute, stated once over the three argument arrays and free of either program:
  labels `lab` (one 32-bit word per row), features `A`, `B` (8192 rows of 512 extended reals).

    nrm X r     = max (sqrt (∑_d X[r,d]²)) eps                 the clamped Euclidean norm of row r
    hat X r d   = X[r,d] / nrm X r                             the row-normalised features
    cosv r c    = ∑_d hat A r d · hat B c d                    the cosine matrix (the second result)
    ev r c      = exp (cosv r c / temp)                        temp the word the reference divides by
    den r       = ∑_c ev r c
    num r       = ∑_c [lab r = lab c] · ev r c
    rowl r      = log (num r / den r)
    loss        = −((∑_r rowl r) / 8192)                       the first result

  The kernel multiplies by a constant named 134217728/9395241 where the reference divides by the word 0x3D8F5C29,
  which denotes 9395241/134217728: dividing by a non-zero real is multiplying by its reciprocal on every extended
  real (`ev_eq_mul`). The kernel sums a row in four blocks of 2048 columns, carried left to right from zero
  (`acc`); on the extended reals addition is commutative and associative, so the carried sum after the fourth
  block is the whole row sum (`acc_three`).
-/
import Idealize.ShloMosaic.PureOps.Ideal
import Idealize.ShloMosaic.Lib.ValueIdx
import Mathlib.Algebra.BigOperators.Intervals
import Mathlib.Algebra.BigOperators.Fin

noncomputable section

namespace Cert.Spec

open Idealize.ShloMosaic Idealize.ShloMosaic.ValueIdx

abbrev SA : Shape := ⟨2, ![8192, 512]⟩
abbrev SL : Shape := ⟨1, ![8192]⟩

/-- The clamp under the norm: the word both programs spell. -/
def eps : EReal := Ideal.ofBits .f32 0x322BCC77#32
/-- The temperature: the word the reference divides by. -/
def temp : EReal := Ideal.ofBits .f32 0x3D8F5C29#32
/-- Its reciprocal, the value the kernel's named constant denotes. -/
def kap : EReal := ((134217728 / 9395241 : ℝ) : EReal)
/-- The number of rows as the word both programs divide the summed loss by. -/
def rows : EReal := Ideal.ofBits .f32 0x46000000#32

def nrm (X : SA.Idx → EReal) (r : Fin 8192) : EReal :=
  max (Ideal.sqrt (∑ d : Fin 512, X (ix2 r d) * X (ix2 r d))) eps

def hat (X : SA.Idx → EReal) (r : Fin 8192) (d : Fin 512) : EReal := Ideal.div (X (ix2 r d)) (nrm X r)

def cosv (A B : SA.Idx → EReal) (r c : Fin 8192) : EReal := ∑ d : Fin 512, hat A r d * hat B c d

def ev (A B : SA.Idx → EReal) (r c : Fin 8192) : EReal := Ideal.exp (Ideal.div (cosv A B r c) temp)

def den (A B : SA.Idx → EReal) (r : Fin 8192) : EReal := ∑ c : Fin 8192, ev A B r c

def num (lab : SL.Idx → BitVec 32) (A B : SA.Idx → EReal) (r : Fin 8192) : EReal :=
  ∑ c : Fin 8192, if lab (ix1 r) = lab (ix1 c) then ev A B r c else 0

def rowl (lab : SL.Idx → BitVec 32) (A B : SA.Idx → EReal) (r : Fin 8192) : EReal :=
  Ideal.log (Ideal.div (num lab A B r) (den A B r))

def loss (lab : SL.Idx → BitVec 32) (A B : SA.Idx → EReal) : EReal :=
  -(Ideal.div (∑ r : Fin 8192, rowl lab A B r) rows)

/-- The reference's temperature word denotes 9395241/134217728. -/
theorem temp_eq : temp = ((9395241 / 134217728 : ℝ) : EReal) := by
  unfold temp
  simp [Ideal.ofBits, Ideal.ieee, -EReal.coe_mul]; norm_num

/-- Dividing by the temperature is multiplying by its reciprocal, on every extended real. -/
theorem div_temp (x : EReal) : Ideal.div x temp = x * kap := by
  rw [temp_eq, Ideal.div_coe (by norm_num : (9395241 / 134217728 : ℝ) ≠ 0)]
  unfold kap
  norm_num

theorem ev_eq_mul (A B : SA.Idx → EReal) (r c : Fin 8192) : ev A B r c = Ideal.exp (cosv A B r c * kap) := by
  unfold ev; rw [div_temp]

/-! ## A row sum in four blocks of 2048 columns -/

/-- Block `j` of a row's terms: columns `2048 j` to `2048 j + 2047` (nothing past the row's end). -/
def blk (f : Fin 8192 → EReal) (j : ℕ) : EReal :=
  ∑ q : Fin 2048, if h : 2048 * j + q.val < 8192 then f ⟨2048 * j + q.val, h⟩ else 0

/-- The sum carried from zero through blocks `0 … j`, in that order. -/
def acc (f : Fin 8192 → EReal) : ℕ → EReal
  | 0 => 0 + blk f 0
  | j + 1 => acc f j + blk f (j + 1)

theorem acc_zero (f : Fin 8192 → EReal) : acc f 0 = 0 + blk f 0 := rfl
theorem acc_succ (f : Fin 8192 → EReal) (j : ℕ) : acc f (j + 1) = acc f j + blk f (j + 1) := rfl

private theorem blk_range (f : Fin 8192 → EReal) (j : ℕ) :
    blk f j = ∑ q ∈ Finset.range 2048, (fun n => if h : n < 8192 then f ⟨n, h⟩ else 0) (2048 * j + q) := by
  unfold blk
  rw [Finset.sum_fin_eq_sum_range]
  refine Finset.sum_congr rfl fun q hq => ?_
  rw [dif_pos (Finset.mem_range.mp hq)]

/-- After the fourth block the carried sum is the whole row sum. -/
theorem acc_three (f : Fin 8192 → EReal) : acc f 3 = ∑ c : Fin 8192, f c := by
  rw [Finset.sum_fin_eq_sum_range]
  show acc f 3 = ∑ i ∈ Finset.range (2048 + 2048 + 2048 + 2048), (fun n => if h : n < 8192 then f ⟨n, h⟩ else 0) i
  rw [Finset.sum_range_add, Finset.sum_range_add, Finset.sum_range_add]
  simp only [acc, blk_range, zero_add, Nat.mul_zero, Nat.mul_one, Nat.zero_add]

end Cert.Spec

end
-- ==== Proof.Payload.lean ====
/-
  The kernel body's stored values read at an index, over the extended reals.  Each is a pure function of the
  blocks the body loads: `a` a 512×512 block of normalised rows, `b` 2048 normalised rows of the other feature
  array, `l1` / `l2` the labels of the block's rows and columns, `v` what an accumulator held before.

    pay5 x  [p,d] = x[p,d] / max (sqrt (∑_d' x[p,d']²)) eps          a raw block, row-normalised
    pay6 a b[p,q] = ∑_d a[p,d] · b[q,d]                               the cosine tile
    pay7 a b[p,q] = exp (pay6 a b [p,q] · kap)                        kap the named reciprocal temperature
    pay8 a b v [p] = v[p] + ∑_q pay7 a b [p,q]                        the denominator's carried sum
    pay9 a b l1 l2 [p] = ∑_q [l1 p = l2 q] · pay7 a b [p,q]           the numerator's tile sum
    pay1 v w [p] = v[p] + w[p]                                        the numerator's carried sum
    pay2 n d [p] = log (n[p] / d[p])                                  the row loss
    pay3 = pay4 = 0                                                   the accumulators' reset
-/
import proofs.«428366_j17231408791669_3_alg».proof.Proof.Spec
import proofs.«428366_j17231408791669_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ## Layout operations of the body read at coordinates -/

/-- An `[a]` vector cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `p` of a sum along axis 1 with column `k` inserted is `(p, k)`. -/
theorem lift_axis1 {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along axis 1 of an `[a, b]` block, read at row `p`, is the sum over the row's columns. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_axis1 h p k)

/-! ## The payloads -/

/-- The named constant denotes the reciprocal temperature, by the certificate's table. -/
theorem kap_eq : Named.named (F := Ideal) κ "inv_temperature" (φ := .f32) 0x41649249#32 = Cert.Spec.kap :=
  IdealRules.named_const.ideal_named_scalar _ _ _ _ rfl

theorem pay3_apply (p : Fin 512) : k0_pay3 (F := Ideal) (ix2 p 0) = 0 := by
  unfold k0_pay3
  rw [shapeCast_self]
  exact Ideal.ofBits_zero_f32

theorem pay4_apply (p : Fin 512) : k0_pay4 (F := Ideal) (ix2 p 0) = 0 := by
  unfold k0_pay4
  rw [shapeCast_self]
  exact Ideal.ofBits_zero_f32

theorem pay5_apply (x : Vec Ideal S512x512 .f32) (p d : Fin 512) :
    k0_pay5 x (ix2 p d)
      = Ideal.div (x (ix2 p d)) (max (Ideal.sqrt (∑ d' : Fin 512, x (ix2 p d') * x (ix2 p d'))) Cert.Spec.eps) := by
  unfold k0_pay5
  rw [shapeCast_self]
  show Ideal.div (x (ix2 p d)) (broadcastTo S512x512 _ broadcasts_S512x1_S512x512 (ix2 p d)) = _
  rw [broadcastTo_a1_ab_apply]
  show Ideal.div (x (ix2 p d)) (max (Ideal.sqrt (shapeCast S512x1 _ shapeCasts_S512_S512x1 (ix2 p 0))) Cert.Spec.eps) = _
  rw [shapeCast_a_a1_apply]
  exact congrArg (fun t => Ideal.div (x (ix2 p d)) (max (Ideal.sqrt t) Cert.Spec.eps))
    (rowSum_apply (mulf x x) _ reduces_S512x512_S512 _ _ p)

theorem pay1_apply (v : Vec Ideal S512x1 .f32) (w : FVec Ideal S512 .f32) (p : Fin 512) :
    k0_pay1 v w (ix2 p 0) = v (ix2 p 0) + w (ix1 p) := by
  unfold k0_pay1
  rw [shapeCast_self]
  show v (ix2 p 0) + shapeCast S512x1 w shapeCasts_S512_S512x1 (ix2 p 0) = _
  rw [shapeCast_a_a1_apply]

theorem pay2_apply (n d : Vec Ideal S512x1 .f32) (p : Fin 512) :
    k0_pay2 n d (ix2 p 0) = Ideal.log (Ideal.div (n (ix2 p 0)) (d (ix2 p 0))) := by
  rfl

/-! ## The cosine tile: a product contracted over both operands' feature axis -/

/-- The left operand's index on its row axis is the result's row. -/
theorem lhs_axis0 (j : S512x2048.Idx) (k : dot_S512x512_S2048x512_S512x2048_1_1_0_0_n_n.contr.Idx) :
    (dot_S512x512_S2048x512_S512x2048_1_1_0_0_n_n.lhsIdx j k 0 : ℕ) = j 0 := by
  simp [DotDims.lhsIdx, dot_S512x512_S2048x512_S512x2048_1_1_0_0_n_n]; rfl

/-- The left operand's index on its feature axis is the contraction's coordinate. -/
theorem lhs_axis1 (j : S512x2048.Idx) (k : dot_S512x512_S2048x512_S512x2048_1_1_0_0_n_n.contr.Idx) :
    (dot_S512x512_S2048x512_S512x2048_1_1_0_0_n_n.lhsIdx j k 1 : ℕ) = k ⟨0, by decide⟩ :=
  DotDims.lhsIdx_val_of_single _ rfl j k

/-- The right operand's index on its row axis is the result's column. -/
theorem rhs_axis0 (j : S512x2048.Idx) (k : dot_S512x512_S2048x512_S512x2048_1_1_0_0_n_n.contr.Idx) :
    (dot_S512x512_S2048x512_S512x2048_1_1_0_0_n_n.rhsIdx j k 0 : ℕ) = j 1 := by
  simp [DotDims.rhsIdx, dot_S512x512_S2048x512_S512x2048_1_1_0_0_n_n]; rfl

/-- The right operand's index on its feature axis is the contraction's coordinate. -/
theorem rhs_axis1 (j : S512x2048.Idx) (k : dot_S512x512_S2048x512_S512x2048_1_1_0_0_n_n.contr.Idx) :
    (dot_S512x512_S2048x512_S512x2048_1_1_0_0_n_n.rhsIdx j k 1 : ℕ) = k ⟨0, by decide⟩ :=
  DotDims.rhsIdx_val_of_single _ rfl j k

theorem pay6_apply (a : Vec Ideal S512x512 .bf16) (b : Vec Ideal S2048x512 .bf16) (p : Fin 512) (q : Fin 2048) :
    k0_pay6 a b (ix2 p q) = ∑ d : Fin 512, a (ix2 p d) * b (ix2 q d) := by
  unfold k0_pay6
  rw [shapeCast_self]
  refine (Ideal.matmul_constant_zero_apply (φ₁ := .bf16) (φ₂ := .bf16) _ none a b (ix2 p q)).trans ?_
  rw [← Equiv.sum_comp (contrEquiv1 dot_S512x512_S2048x512_S512x2048_1_1_0_0_n_n 512 rfl rfl).symm]
  refine Finset.sum_congr rfl fun d _ => ?_
  congr 2
  · funext c
    match c with
    | ⟨0, _⟩ => exact Fin.ext (lhs_axis0 _ _)
    | ⟨1, _⟩ => exact Fin.ext ((lhs_axis1 _ _).trans (contrEquiv1_symm_val _ 512 rfl rfl d))
  · funext c
    match c with
    | ⟨0, _⟩ => exact Fin.ext (rhs_axis0 _ _)
    | ⟨1, _⟩ => exact Fin.ext ((rhs_axis1 _ _).trans (contrEquiv1_symm_val _ 512 rfl rfl d))

/-! ## The exponentials, their row sums and the label mask -/

theorem pay7_apply (a : Vec Ideal S512x512 .bf16) (b : Vec Ideal S2048x512 .bf16) (p : Fin 512) (q : Fin 2048) :
    k0_pay7 a b (ix2 p q) = Ideal.exp ((∑ d : Fin 512, a (ix2 p d) * b (ix2 q d)) * Cert.Spec.kap) := by
  unfold k0_pay7
  show Ideal.exp (k0_pay6 a b (ix2 p q) * Named.named (F := Ideal) κ "inv_temperature" (φ := .f32) 0x41649249#32) = _
  rw [pay6_apply, kap_eq]

theorem pay8_apply (a : Vec Ideal S512x512 .bf16) (b : Vec Ideal S2048x512 .bf16) (v : Vec Ideal S512x1 .f32) (p : Fin 512) :
    k0_pay8 a b v (ix2 p 0) = v (ix2 p 0) + ∑ q : Fin 2048, k0_pay7 a b (ix2 p q) := by
  unfold k0_pay8
  rw [shapeCast_self]
  show v (ix2 p 0) + shapeCast S512x1 _ shapeCasts_S512_S512x1 (ix2 p 0) = _
  rw [shapeCast_a_a1_apply]
  exact congrArg (v (ix2 p 0) + ·) (rowSum_apply (k0_pay7 a b) _ reduces_S512x2048_S512 _ _ p)

/-- A select on the equality of two words is the `if` on it. -/
theorem select_cmpi_eq {α : Type} {w : ℕ} (x y : BitVec w) (A B : α) :
    Scalar.select (IntOp.cmpi .eq x y) A B = if x = y then A else B := by
  by_cases h : x = y
  · subst h
    rw [if_pos rfl]
    show (if BitVec.ofBool (x == x) = 1#1 then A else B) = A
    rw [beq_self_eq_true]
    exact if_pos (by decide)
  · rw [if_neg h]
    show (if BitVec.ofBool (x == y) = 1#1 then A else B) = B
    rw [beq_eq_false_iff_ne.mpr h]
    exact if_neg (by decide)

theorem pay9_apply (a : Vec Ideal S512x512 .bf16) (b : Vec Ideal S2048x512 .bf16)
    (l1 : Vec Ideal S512x1 .i32) (l2 : Vec Ideal S1x2048 .i32) (p : Fin 512) :
    k0_pay9 a b l1 l2 (ix1 p)
      = ∑ q : Fin 2048, if l1 (ix2 p 0) = l2 (ix2 0 q) then k0_pay7 a b (ix2 p q) else 0 := by
  unfold k0_pay9
  refine (rowSum_apply (φ := .f32) _ _ reduces_S512x2048_S512 _ _ p).trans ?_
  refine Finset.sum_congr rfl fun q _ => ?_
  rw [shapeCast_self, shapeCast_self]
  show Scalar.select (IntOp.cmpi .eq (broadcastTo S512x2048 l1 broadcasts_S512x1_S512x2048 (ix2 p q))
      (broadcastTo S512x2048 l2 broadcasts_S1x2048_S512x2048 (ix2 p q))) (k0_pay7 a b (ix2 p q)) (Ideal.ofBits .f32 0x00000000#32) = _
  rw [broadcastTo_a1_ab_apply, broadcastTo_1b_ab_apply, Ideal.ofBits_zero_f32, select_cmpi_eq]

end Cert.KernelIdeal.Payload

end
-- ==== Proof.Steps.lean ====
/-
  One grid step, as mathematics.  At grid point (i, j) the body works on the row block R p = 512·i + p and the
  column block C q = 2048·j + q.  If the cached block `a` holds the normalised rows of A and the slice `b` the
  normalised rows of B at the block's columns, then
     the stored tile is the cosine matrix there,
     the exponentials are `ev` there,
     the denominator's store is what it held plus block j of the row's terms,
     the numerator's store is what it held plus block j of the row's masked terms,
  and, once both have run through block 3, the row loss is log (num / den) of the whole row sums.
-/
import proofs.«428366_j17231408791669_3_alg».proof.Proof.Spec
import proofs.«428366_j17231408791669_3_alg».proof.Proof.Payload

noncomputable section

namespace Cert.KernelIdeal.Steps

open Idealize.ShloMosaic Idealize.ShloMosaic.ValueIdx Cert.KernelIdeal Cert.KernelIdeal.Gen Cert.KernelIdeal.Payload Cert.Spec

variable (lab : SL.Idx → BitVec 32) (A B : SA.Idx → EReal)

/-- Column `q` of column block `j`. -/
def col (j : ℕ) (hj : j < 4) (q : Fin 2048) : Fin 8192 := ⟨2048 * j + q.val, by have := q.isLt; omega⟩
/-- Row `p` of row block `i`. -/
def row (i : ℕ) (hi : i < 16) (p : Fin 512) : Fin 8192 := ⟨512 * i + p.val, by have := p.isLt; omega⟩

/-- The terms of row `r`'s denominator and numerator. -/
def fden (r : Fin 8192) : Fin 8192 → EReal := fun c => ev A B r c
def fnum (r : Fin 8192) : Fin 8192 → EReal := fun c => if lab (ix1 r) = lab (ix1 c) then ev A B r c else 0

theorem blk_eq (f : Fin 8192 → EReal) (j : ℕ) (hj : j < 4) : blk f j = ∑ q : Fin 2048, f (col j hj q) := by
  unfold blk col
  refine Finset.sum_congr rfl fun q _ => ?_
  rw [dif_pos (by have := q.isLt; omega)]

theorem norm_block (x : Vec Ideal S512x512 .f32) (R : Fin 512 → Fin 8192)
    (hx : ∀ p d, x (ix2 p d) = A (ix2 (R p) d)) (p d : Fin 512) :
    k0_pay5 x (ix2 p d) = hat A (R p) d := by
  rw [pay5_apply]; unfold hat nrm; simp only [hx]

theorem tile (a : Vec Ideal S512x512 .bf16) (b : Vec Ideal S2048x512 .bf16) (R : Fin 512 → Fin 8192) (C : Fin 2048 → Fin 8192)
    (ha : ∀ p d, a (ix2 p d) = hat A (R p) d) (hb : ∀ q d, b (ix2 q d) = hat B (C q) d) (p : Fin 512) (q : Fin 2048) :
    k0_pay6 a b (ix2 p q) = cosv A B (R p) (C q) := by
  rw [pay6_apply]; unfold cosv; simp only [ha, hb]

theorem etile (a : Vec Ideal S512x512 .bf16) (b : Vec Ideal S2048x512 .bf16) (R : Fin 512 → Fin 8192) (C : Fin 2048 → Fin 8192)
    (ha : ∀ p d, a (ix2 p d) = hat A (R p) d) (hb : ∀ q d, b (ix2 q d) = hat B (C q) d) (p : Fin 512) (q : Fin 2048) :
    k0_pay7 a b (ix2 p q) = ev A B (R p) (C q) := by
  rw [pay7_apply, ev_eq_mul]; unfold cosv; simp only [ha, hb]

theorem den_step (a : Vec Ideal S512x512 .bf16) (b : Vec Ideal S2048x512 .bf16) (v : Vec Ideal S512x1 .f32)
    (R : Fin 512 → Fin 8192) (j : ℕ) (hj : j < 4)
    (ha : ∀ p d, a (ix2 p d) = hat A (R p) d) (hb : ∀ q d, b (ix2 q d) = hat B (col j hj q) d) (p : Fin 512) :
    k0_pay8 a b v (ix2 p 0) = v (ix2 p 0) + blk (fden A B (R p)) j := by
  rw [pay8_apply, blk_eq _ j hj]
  refine congrArg (v (ix2 p 0) + ·) (Finset.sum_congr rfl fun q _ => ?_)
  exact etile A B a b R (col j hj) ha hb p q

theorem num_step (a : Vec Ideal S512x512 .bf16) (b : Vec Ideal S2048x512 .bf16) (v : Vec Ideal S512x1 .f32)
    (l1 : Vec Ideal S512x1 .i32) (l2 : Vec Ideal S1x2048 .i32)
    (R : Fin 512 → Fin 8192) (j : ℕ) (hj : j < 4)
    (ha : ∀ p d, a (ix2 p d) = hat A (R p) d) (hb : ∀ q d, b (ix2 q d) = hat B (col j hj q) d)
    (hl1 : ∀ p, l1 (ix2 p 0) = lab (ix1 (R p))) (hl2 : ∀ q, l2 (ix2 0 q) = lab (ix1 (col j hj q))) (p : Fin 512) :
    k0_pay1 v (k0_pay9 a b l1 l2) (ix2 p 0) = v (ix2 p 0) + blk (fnum lab A B (R p)) j := by
  rw [pay1_apply, pay9_apply, blk_eq _ j hj]
  refine congrArg (v (ix2 p 0) + ·) (Finset.sum_congr rfl fun q _ => ?_)
  unfold fnum
  rw [hl1, hl2, etile A B a b R (col j hj) ha hb p q]

theorem loss_step (n d : Vec Ideal S512x1 .f32) (r : Fin 8192) (p : Fin 512)
    (hn : n (ix2 p 0) = acc (fnum lab A B r) 3) (hd : d (ix2 p 0) = acc (fden A B r) 3) :
    k0_pay2 n d (ix2 p 0) = rowl lab A B r := by
  rw [pay2_apply, hn, hd, acc_three, acc_three]
  rfl

end Cert.KernelIdeal.Steps

end
-- ==== Proof.Blocks.lean ====
/-
  Where each window's block sits in its array.  The grid is 16 × 4, row-major: point `t` is row block `t / 4`
  and column block `t % 4`.  At point `t`
    the label column block  is rows 512·(t/4) … of the labels reshaped to [8192, 1],
    the label row block     is columns 2048·(t%4) … of the labels reshaped to [1, 8192],
    the raw feature block   is rows 512·(t/4) … of the first feature array,
    the resident block      is the whole normalised second feature array, of which the body reads the 2048 rows
                            from row 2048·(t%4).
-/
import proofs.«428366_j17231408791669_3_alg».proof.Proof.Pieces
import proofs.«428366_j17231408791669_3_alg».proof.Proof.Steps

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Cert.KernelIdeal.Steps

variable {F : FTy → Type} [FloatOps F] [Named F]
variable (m : (ℓ : Loc nD τ sig) → Buf (Elt F) ℓ)

theorem N64 : cfg0.N = 64 := N_0

theorem lt64 (t : Fin cfg0.N) : t.val < 64 := lt_of_lt_of_eq t.isLt N64
theorem div4 (t : Fin cfg0.N) : t.val / 4 < 16 := by have := lt64 t; omega
theorem mod4 (t : Fin cfg0.N) : t.val % 4 < 4 := Nat.mod_lt _ (by decide)

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)
theorem idx5 : ∀ t : Fin cfg0.N, win0_5.index t 0 = t.val / 4 ∧ win0_5.index t 1 = 0 :=
  (by decide +kernel : ∀ t : Fin grid0.N, win0_5.index t 0 = t.val / 4 ∧ win0_5.index t 1 = 0)

theorem off1 : ∀ t : Fin cfg0.N, k0_off1 (grid0.coords t) 0 = 2048 * (t.val % 4) ∧ k0_off1 (grid0.coords t) 1 = 0 :=
  (by decide +kernel : ∀ t : Fin grid0.N, k0_off1 (grid0.coords t) 0 = 2048 * (t.val % 4) ∧ k0_off1 (grid0.coords t) 1 = 0)

/-- The label column block at point `t`. -/
theorem lcol_apply (c : Dev nD) (t : Fin cfg0.N) (p : Fin 512) :
    (iblk m c 0 t : Vec F S512x1 .i32) (ix2 p 0)
      = (V m c main_v0 : S8192x1.Idx → Elt F .i32) (ix2 (row (t.val / 4) (div4 t) p) 0) := by
  unfold iblk
  rw [View.read_apply]
  show V m c main_v0 _ = V m c main_v0 _
  congr 1
  funext a
  apply Fin.ext
  match a with
  | ⟨0, _⟩ => show win0_0.index t 0 * 512 + 1 * p.val = 512 * (t.val / 4) + p.val; rw [(idx0 t).1]; omega
  | ⟨1, _⟩ => show win0_0.index t 1 * 1 + 1 * 0 = 0; rw [(idx0 t).2]

/-- The label row block at point `t`. -/
theorem lrow_apply (c : Dev nD) (t : Fin cfg0.N) (q : Fin 2048) :
    (iblk m c 1 t : Vec F S1x2048 .i32) (ix2 0 q)
      = (V m c main_v1 : S1x8192.Idx → Elt F .i32) (ix2 0 (col (t.val % 4) (mod4 t) q)) := by
  unfold iblk
  rw [View.read_apply]
  show V m c main_v1 _ = V m c main_v1 _
  congr 1
  funext a
  apply Fin.ext
  match a with
  | ⟨0, _⟩ => show win0_1.index t 0 * 1 + 1 * 0 = 0; rw [(idx1 t).1]
  | ⟨1, _⟩ => show win0_1.index t 1 * 2048 + 1 * q.val = 2048 * (t.val % 4) + q.val; rw [(idx1 t).2]; omega

/-- The raw feature block at point `t`. -/
theorem ablk_apply (c : Dev nD) (t : Fin cfg0.N) (p d : Fin 512) :
    (iblk m c 2 t : Vec F S512x512 .f32) (ix2 p d)
      = (V m c main_arg1 : S8192x512.Idx → Elt F .f32) (ix2 (row (t.val / 4) (div4 t) p) d) := by
  unfold iblk
  rw [View.read_apply]
  show V m c main_arg1 _ = V m c main_arg1 _
  congr 1
  funext a
  apply Fin.ext
  match a with
  | ⟨0, _⟩ => show win0_2.index t 0 * 512 + 1 * p.val = 512 * (t.val / 4) + p.val; rw [(idx2 t).1]; omega
  | ⟨1, _⟩ => show win0_2.index t 1 * 512 + 1 * d.val = d.val; rw [(idx2 t).2]; omega

/-- The resident block at every point is the whole normalised array. -/
theorem bblk_apply (c : Dev nD) (t : Fin cfg0.N) (r : Fin 8192) (d : Fin 512) :
    (iblk m c 3 t : Vec F S8192x512 .bf16) (ix2 r d)
      = (V m c main_v10 : S8192x512.Idx → Elt F .bf16) (ix2 r d) := by
  unfold iblk
  rw [View.read_apply]
  show V m c main_v10 _ = V m c main_v10 _
  congr 1
  funext a
  apply Fin.ext
  match a with
  | ⟨0, _⟩ => show win0_3.index t 0 * 8192 + 1 * r.val = r.val; rw [(idx3 t).1]; omega
  | ⟨1, _⟩ => show win0_3.index t 1 * 512 + 1 * d.val = d.val; rw [(idx3 t).2]; omega

/-- The 2048 rows the body reads of a resident array at point `t`: rows `2048·(t%4)` onward. -/
theorem bsl_apply (t : Fin cfg0.N) (x3 : Vec F S8192x512 .bf16) (q : Fin 2048) (d : Fin 512) :
    bsl (grid0.coords t) x3 (ix2 q d) = x3 (ix2 (col (t.val % 4) (mod4 t) q) d) := by
  show x3 _ = x3 _
  congr 1
  funext a
  apply Fin.ext
  match a with
  | ⟨0, _⟩ => show k0_off1 (grid0.coords t) 0 + 1 * q.val = 2048 * (t.val % 4) + q.val; rw [(off1 t).1]; omega
  | ⟨1, _⟩ => show k0_off1 (grid0.coords t) 1 + 1 * d.val = d.val; rw [(off1 t).2]; omega

end Cert.KernelIdeal.Blocks

end
-- ==== Proof.Cases.lean ====
/-
  The staging buffers after a grid point, case by case, in terms of the body's stored values.  `prevNum`,
  `prevDen`, `prevCache` are what the point before left in the two accumulators and in the cached normalised
  rows; `rawA t` is the raw feature block, `resB t` the 2048 resident rows the point reads, `lcol t` / `lrow t`
  the labels of its rows and columns.  Generic in the float instance.
-/
import proofs.«428366_j17231408791669_3_alg».proof.Proof.Pieces

set_option maxRecDepth 16384

noncomputable section

open Idealize.ShloMosaic Idealize.ShloMosaic.TcCoe Idealize.SL.Sem

namespace Cert.KernelIdeal.Cases

open Cert.KernelIdeal Cert.KernelIdeal.Gen Cert.KernelIdeal.Pieces

variable {F : FTy → Type} [FloatOps F] [Named F]
variable (m : (ℓ : Loc nD τ sig) → Buf (Elt F) ℓ)

abbrev lcol (c : Dev nD) (t : Fin cfg0.N) : Vec F S512x1 .i32 := iblk m c 0 t
abbrev lrow (c : Dev nD) (t : Fin cfg0.N) : Vec F S1x2048 .i32 := iblk m c 1 t
abbrev rawA (c : Dev nD) (t : Fin cfg0.N) : Vec F S512x512 .f32 := iblk m c 2 t
abbrev resB (c : Dev nD) (t : Fin cfg0.N) : Vec F S2048x512 .bf16 := bsl (grid0.coords t) (iblk m c 3 t)

/-- What the point before `t` left in the numerator's accumulator, the denominator's, and the cached rows. -/
abbrev prevNum (c : Dev nD) (t : Fin cfg0.N) : Vec F S512x1 .f32 :=
  (outsAt0 m c (t.val - 1) (Nat.lt_of_le_of_lt (Nat.sub_le _ _) t.isLt)).2.2.1
abbrev prevDen (c : Dev nD) (t : Fin cfg0.N) : Vec F S512x1 .f32 :=
  (outsAt0 m c (t.val - 1) (Nat.lt_of_le_of_lt (Nat.sub_le _ _) t.isLt)).2.2.2.1
abbrev prevCache (c : Dev nD) (t : Fin cfg0.N) : Vec F S512x512 .bf16 :=
  (outsAt0 m c (t.val - 1) (Nat.lt_of_le_of_lt (Nat.sub_le _ _) t.isLt)).2.2.2.2

/-! ## The first column block of a row block -/

theorem cache_first (c : Dev nD) (t : Fin cfg0.N) (h0 : t.val % 4 = 0) (h1 : ¬t.val % 4 = 3) :
    (outsAt0 m c t.val t.isLt).2.2.2.2 = k0_pay5 (rawA m c t) := by
  rw [outsAt0_A m c t h0 h1]; dsimp only
  exact cache_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

theorem tile_first (c : Dev nD) (t : Fin cfg0.N) (h0 : t.val % 4 = 0) (h1 : ¬t.val % 4 = 3) :
    (outsAt0 m c t.val t.isLt).1 = k0_pay6 (k0_pay5 (rawA m c t)) (resB m c t) := by
  rw [outsAt0_A m c t h0 h1]; dsimp only
  exact tile_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

theorem num_first (c : Dev nD) (t : Fin cfg0.N) (h0 : t.val % 4 = 0) (h1 : ¬t.val % 4 = 3) :
    (outsAt0 m c t.val t.isLt).2.2.1
      = k0_pay1 (k0_pay3 (F := F)) (k0_pay9 (k0_pay5 (rawA m c t)) (resB m c t) (lcol m c t) (lrow m c t)) := by
  rw [outsAt0_A m c t h0 h1]; dsimp only
  exact num_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

theorem den_first (c : Dev nD) (t : Fin cfg0.N) (h0 : t.val % 4 = 0) (h1 : ¬t.val % 4 = 3) :
    (outsAt0 m c t.val t.isLt).2.2.2.1 = k0_pay8 (k0_pay5 (rawA m c t)) (resB m c t) (k0_pay4 (F := F)) := by
  rw [outsAt0_A m c t h0 h1]; dsimp only
  exact den_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-! ## A middle column block -/

theorem cache_mid (c : Dev nD) (t : Fin cfg0.N) (h0 : ¬t.val % 4 = 0) (h1 : ¬t.val % 4 = 3) :
    (outsAt0 m c t.val t.isLt).2.2.2.2 = prevCache m c t := by
  rw [outsAt0_B m c t h0 h1]; rfl

theorem tile_mid (c : Dev nD) (t : Fin cfg0.N) (h0 : ¬t.val % 4 = 0) (h1 : ¬t.val % 4 = 3) :
    (outsAt0 m c t.val t.isLt).1 = k0_pay6 (prevCache m c t) (resB m c t) := by
  rw [outsAt0_B m c t h0 h1]; dsimp only
  exact tile_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem num_mid (c : Dev nD) (t : Fin cfg0.N) (h0 : ¬t.val % 4 = 0) (h1 : ¬t.val % 4 = 3) :
    (outsAt0 m c t.val t.isLt).2.2.1
      = k0_pay1 (prevNum m c t) (k0_pay9 (prevCache m c t) (resB m c t) (lcol m c t) (lrow m c t)) := by
  rw [outsAt0_B m c t h0 h1]; dsimp only
  exact num_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem den_mid (c : Dev nD) (t : Fin cfg0.N) (h0 : ¬t.val % 4 = 0) (h1 : ¬t.val % 4 = 3) :
    (outsAt0 m c t.val t.isLt).2.2.2.1 = k0_pay8 (prevCache m c t) (resB m c t) (prevDen m c t) := by
  rw [outsAt0_B m c t h0 h1]; dsimp only
  exact den_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-! ## The last column block -/

theorem cache_last (c : Dev nD) (t : Fin cfg0.N) (h0 : ¬t.val % 4 = 0) (h1 : t.val % 4 = 3) :
    (outsAt0 m c t.val t.isLt).2.2.2.2 = prevCache m c t := by
  rw [outsAt0_C m c t h0 h1]; rfl

theorem tile_last (c : Dev nD) (t : Fin cfg0.N) (h0 : ¬t.val % 4 = 0) (h1 : t.val % 4 = 3) :
    (outsAt0 m c t.val t.isLt).1 = k0_pay6 (prevCache m c t) (resB m c t) := by
  rw [outsAt0_C m c t h0 h1]; dsimp only
  exact tile_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem num_last (c : Dev nD) (t : Fin cfg0.N) (h0 : ¬t.val % 4 = 0) (h1 : t.val % 4 = 3) :
    (outsAt0 m c t.val t.isLt).2.2.1
      = k0_pay1 (prevNum m c t) (k0_pay9 (prevCache m c t) (resB m c t) (lcol m c t) (lrow m c t)) := by
  rw [outsAt0_C m c t h0 h1]; dsimp only
  exact num_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem den_last (c : Dev nD) (t : Fin cfg0.N) (h0 : ¬t.val % 4 = 0) (h1 : t.val % 4 = 3) :
    (outsAt0 m c t.val t.isLt).2.2.2.1 = k0_pay8 (prevCache m c t) (resB m c t) (prevDen m c t) := by
  rw [outsAt0_C m c t h0 h1]; dsimp only
  exact den_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem loss_last (c : Dev nD) (t : Fin cfg0.N) (h0 : ¬t.val % 4 = 0) (h1 : t.val % 4 = 3) :
    (outsAt0 m c t.val t.isLt).2.1
      = k0_pay2 (k0_pay1 (prevNum m c t) (k0_pay9 (prevCache m c t) (resB m c t) (lcol m c t) (lrow m c t)))
          (k0_pay8 (prevCache m c t) (resB m c t) (prevDen m c t)) := by
  rw [outsAt0_C m c t h0 h1]; dsimp only
  exact loss_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Cases

end
-- ==== Proof.Induct.lean ====
/-
  The induction over the grid.  Write t = 4·i + j.  After point t
     the cached rows are the normalised rows 512·i … of A,
     the cosine tile's buffer is the cosine matrix at rows 512·i …, columns 2048·j …,
     the denominator's accumulator is the sum carried from zero through column blocks 0 … j of the row's terms,
     the numerator's accumulator the same of the row's masked terms,
  and after the last column block (j = 3) the row-loss buffer is log (num / den) of the whole row sums.
  At j = 0 the body resets the accumulators and normalises the raw block itself; at j > 0 it finds what point t − 1
  left, which is in the same row block and one column block to the left.
  The three facts about the arrays the host prepared before the region (`hB`: the resident array is the
  normalised B; `hL0`, `hL1`: the two label arrays are the labels reshaped) are taken as hypotheses here.
-/
import proofs.«428366_j17231408791669_3_alg».proof.Proof.Blocks
import proofs.«428366_j17231408791669_3_alg».proof.Proof.Cases

set_option maxRecDepth 16384

noncomputable section

open Idealize.ShloMosaic Idealize.ShloMosaic.TcCoe Idealize.SL.Sem Idealize.ShloMosaic.ValueIdx

namespace Cert.KernelIdeal.Induct

open Cert.KernelIdeal Cert.KernelIdeal.Gen Cert.KernelIdeal.Pieces Cert.KernelIdeal.Steps Cert.KernelIdeal.Blocks
open Cert.KernelIdeal.Cases Cert.KernelIdeal.Payload Cert.Spec

variable (m : (ℓ : Loc nD τ sig) → Buf (Elt Ideal) ℓ)

/-- The three argument arrays as launched. -/
abbrev lab (c : Dev nD) : SL.Idx → BitVec 32 := m ((c : Thread nD τ).loc main_arg0)
abbrev fa (c : Dev nD) : SA.Idx → EReal := m ((c : Thread nD τ).loc main_arg1)
abbrev fb (c : Dev nD) : SA.Idx → EReal := m ((c : Thread nD τ).loc main_arg2)

theorem row_congr {i i' : ℕ} (e : i = i') (h : i < 16) (h' : i' < 16) (p : Fin 512) : row i h p = row i' h' p := by
  subst e; rfl

section
variable (c : Dev nD)
variable (hB : ∀ (r : Fin 8192) (d : Fin 512), (V m c main_v10 : S8192x512.Idx → EReal) (ix2 r d) = hat (fb m c) r d)
variable (hL0 : ∀ r : Fin 8192, (V m c main_v0 : S8192x1.Idx → BitVec 32) (ix2 r 0) = lab m c (ix1 r))
variable (hL1 : ∀ q : Fin 8192, (V m c main_v1 : S1x8192.Idx → BitVec 32) (ix2 0 q) = lab m c (ix1 q))

/-! ## The blocks a point reads -/

theorem rawA_eq (t : Fin cfg0.N) (p d : Fin 512) :
    rawA m c t (ix2 p d) = fa m c (ix2 (row (t.val / 4) (div4 t) p) d) :=
  (ablk_apply m c t p d).trans (congrFun (V_main_arg1 m c) _)

include hB in
theorem resB_eq (t : Fin cfg0.N) (q : Fin 2048) (d : Fin 512) :
    resB m c t (ix2 q d) = hat (fb m c) (col (t.val % 4) (mod4 t) q) d :=
  (bsl_apply t (iblk m c 3 t) q d).trans ((bblk_apply m c t _ d).trans (hB _ d))

include hL0 in
theorem lcol_eq (t : Fin cfg0.N) (p : Fin 512) :
    lcol m c t (ix2 p 0) = lab m c (ix1 (row (t.val / 4) (div4 t) p)) :=
  (lcol_apply m c t p).trans (hL0 _)

include hL1 in
theorem lrow_eq (t : Fin cfg0.N) (q : Fin 2048) :
    lrow m c t (ix2 0 q) = lab m c (ix1 (col (t.val % 4) (mod4 t) q)) :=
  (lrow_apply m c t q).trans (hL1 _)

/-! ## The invariant -/

/-- What the cached rows, the tile and the two accumulators hold after point `t`. -/
structure Inv (t : Fin cfg0.N) : Prop where
  cache : ∀ p d : Fin 512, (outsAt0 m c t.val t.isLt).2.2.2.2 (ix2 p d) = hat (fa m c) (row (t.val / 4) (div4 t) p) d
  tile : ∀ (p : Fin 512) (q : Fin 2048), (outsAt0 m c t.val t.isLt).1 (ix2 p q)
      = cosv (fa m c) (fb m c) (row (t.val / 4) (div4 t) p) (col (t.val % 4) (mod4 t) q)
  num : ∀ p : Fin 512, (outsAt0 m c t.val t.isLt).2.2.1 (ix2 p 0)
      = acc (fnum (lab m c) (fa m c) (fb m c) (row (t.val / 4) (div4 t) p)) (t.val % 4)
  den : ∀ p : Fin 512, (outsAt0 m c t.val t.isLt).2.2.2.1 (ix2 p 0)
      = acc (fden (fa m c) (fb m c) (row (t.val / 4) (div4 t) p)) (t.val % 4)

include hB hL0 hL1 in
/-- The first column block of a row block: nothing carried in. -/
theorem inv_first (t : Fin cfg0.N) (h0 : t.val % 4 = 0) : Inv m c t := by
  have h1 : ¬t.val % 4 = 3 := by omega
  have hc : ∀ p d : Fin 512, k0_pay5 (rawA m c t) (ix2 p d) = hat (fa m c) (row (t.val / 4) (div4 t) p) d :=
    fun p d => norm_block (fa m c) (rawA m c t) (row (t.val / 4) (div4 t)) (rawA_eq m c t) p d
  refine ⟨fun p d => ?_, fun p q => ?_, fun p => ?_, fun p => ?_⟩
  · rw [cache_first m c t h0 h1]; exact hc p d
  · rw [tile_first m c t h0 h1]
    exact tile (fa m c) (fb m c) (k0_pay5 (rawA m c t)) (resB m c t) (row (t.val / 4) (div4 t)) (col (t.val % 4) (mod4 t))
      hc (resB_eq m c hB t) p q
  · rw [num_first m c t h0 h1]
    refine (num_step (lab m c) (fa m c) (fb m c) (k0_pay5 (rawA m c t)) (resB m c t) (k0_pay3 (F := Ideal))
      (lcol m c t) (lrow m c t) (row (t.val / 4) (div4 t)) (t.val % 4) (mod4 t) hc (resB_eq m c hB t)
      (lcol_eq m c hL0 t) (lrow_eq m c hL1 t) p).trans ?_
    rw [pay3_apply, h0]; rfl
  · rw [den_first m c t h0 h1]
    refine (den_step (fa m c) (fb m c) (k0_pay5 (rawA m c t)) (resB m c t) (k0_pay4 (F := Ideal))
      (row (t.val / 4) (div4 t)) (t.val % 4) (mod4 t) hc (resB_eq m c hB t) p).trans ?_
    rw [pay4_apply, h0]; rfl

/-- The point before `t`, when `t` is not the first column block of its row block. -/
abbrev pred (t : Fin cfg0.N) : Fin cfg0.N := ⟨t.val - 1, Nat.lt_of_le_of_lt (Nat.sub_le _ _) t.isLt⟩

include hB hL0 hL1 in
/-- A later column block: the accumulators and the cached rows are what the point before left. -/
theorem inv_next (t : Fin cfg0.N) (h0 : ¬t.val % 4 = 0) (ih : Inv m c (pred t)) : Inv m c t := by
  have hdiv : (pred t).val / 4 = t.val / 4 := by show (t.val - 1) / 4 = t.val / 4; omega
  obtain ⟨j, hj, hj'⟩ : ∃ j, t.val % 4 = j + 1 ∧ (pred t).val % 4 = j :=
    ⟨t.val % 4 - 1, by omega, by show (t.val - 1) % 4 = t.val % 4 - 1; omega⟩
  have hc : ∀ p d : Fin 512, prevCache m c t (ix2 p d) = hat (fa m c) (row (t.val / 4) (div4 t) p) d := fun p d => by
    rw [← row_congr hdiv (div4 (pred t)) (div4 t) p]; exact ih.cache p d
  have hn : ∀ p : Fin 512, prevNum m c t (ix2 p 0)
      = acc (fnum (lab m c) (fa m c) (fb m c) (row (t.val / 4) (div4 t) p)) j := fun p => by
    rw [← row_congr hdiv (div4 (pred t)) (div4 t) p, ← hj']; exact ih.num p
  have hd : ∀ p : Fin 512, prevDen m c t (ix2 p 0)
      = acc (fden (fa m c) (fb m c) (row (t.val / 4) (div4 t) p)) j := fun p => by
    rw [← row_congr hdiv (div4 (pred t)) (div4 t) p, ← hj']; exact ih.den p
  have hnum : ∀ p : Fin 512, k0_pay1 (prevNum m c t) (k0_pay9 (prevCache m c t) (resB m c t) (lcol m c t) (lrow m c t)) (ix2 p 0)
      = acc (fnum (lab m c) (fa m c) (fb m c) (row (t.val / 4) (div4 t) p)) (t.val % 4) := fun p => by
    refine (num_step (lab m c) (fa m c) (fb m c) (prevCache m c t) (resB m c t) (prevNum m c t)
      (lcol m c t) (lrow m c t) (row (t.val / 4) (div4 t)) (t.val % 4) (mod4 t) hc (resB_eq m c hB t)
      (lcol_eq m c hL0 t) (lrow_eq m c hL1 t) p).trans ?_
    rw [hn p, hj]; rfl
  have hden : ∀ p : Fin 512, k0_pay8 (prevCache m c t) (resB m c t) (prevDen m c t) (ix2 p 0)
      = acc (fden (fa m c) (fb m c) (row (t.val / 4) (div4 t) p)) (t.val % 4) := fun p => by
    refine (den_step (fa m c) (fb m c) (prevCache m c t) (resB m c t) (prevDen m c t)
      (row (t.val / 4) (div4 t)) (t.val % 4) (mod4 t) hc (resB_eq m c hB t) p).trans ?_
    rw [hd p, hj]; rfl
  have htile : ∀ (p : Fin 512) (q : Fin 2048), k0_pay6 (prevCache m c t) (resB m c t) (ix2 p q)
      = cosv (fa m c) (fb m c) (row (t.val / 4) (div4 t) p) (col (t.val % 4) (mod4 t) q) := fun p q =>
    tile (fa m c) (fb m c) (prevCache m c t) (resB m c t) (row (t.val / 4) (div4 t)) (col (t.val % 4) (mod4 t))
      hc (resB_eq m c hB t) p q
  by_cases h1 : t.val % 4 = 3
  · refine ⟨fun p d => ?_, fun p q => ?_, fun p => ?_, fun p => ?_⟩
    · rw [cache_last m c t h0 h1]; exact hc p d
    · rw [tile_last m c t h0 h1]; exact htile p q
    · rw [num_last m c t h0 h1]; exact hnum p
    · rw [den_last m c t h0 h1]; exact hden p
  · refine ⟨fun p d => ?_, fun p q => ?_, fun p => ?_, fun p => ?_⟩
    · rw [cache_mid m c t h0 h1]; exact hc p d
    · rw [tile_mid m c t h0 h1]; exact htile p q
    · rw [num_mid m c t h0 h1]; exact hnum p
    · rw [den_mid m c t h0 h1]; exact hden p

include hB hL0 hL1 in
/-- The invariant holds after every point: by induction on the point. -/
theorem inv : ∀ (n : ℕ) (h : n < cfg0.N), Inv m c ⟨n, h⟩
  | 0, h => inv_first m c hB hL0 hL1 ⟨0, h⟩ rfl
  | n + 1, h => by
    by_cases h0 : (n + 1) % 4 = 0
    · exact inv_first m c hB hL0 hL1 ⟨n + 1, h⟩ h0
    · exact inv_next m c hB hL0 hL1 ⟨n + 1, h⟩ h0 (inv n (Nat.lt_of_succ_lt h))

include hB hL0 hL1 in
/-- After the last column block of a row block the row-loss buffer holds the row losses. -/
theorem loss_of_inv (t : Fin cfg0.N) (h3 : t.val % 4 = 3) (p : Fin 512) :
    (outsAt0 m c t.val t.isLt).2.1 (ix2 p 0)
      = rowl (lab m c) (fa m c) (fb m c) (row (t.val / 4) (div4 t) p) := by
  have h0 : ¬t.val % 4 = 0 := by omega
  have hi := inv m c hB hL0 hL1 t.val t.isLt
  rw [loss_last m c t h0 h3]
  refine loss_step (lab m c) (fa m c) (fb m c) _ _ (row (t.val / 4) (div4 t) p) p ?_ ?_
  · rw [← num_last m c t h0 h3, ← h3]; exact hi.num p
  · rw [← den_last m c t h0 h3, ← h3]; exact hi.den p

end

end Cert.KernelIdeal.Induct

end
-- ==== Proof.HostSide.lean ====
/-
  The kernel program's host operations around its region, read at an index: the two label arrays, the
  row-normalised second feature array, and the loss computed from the column of row losses.
-/
import proofs.«428366_j17231408791669_3_alg».proof.Proof.Spec
import proofs.«428366_j17231408791669_3_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.HostSide

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-! ## A trailing unit axis added to or dropped from a vector -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## The label arrays as the region finds them -/

theorem V_v0_apply (c : Dev nD) (r : Fin 8192) :
    (V m c main_v0 : S8192x1.Idx → BitVec 32) (ix2 r 0) = m ((c : Thread nD τ).loc main_arg0) (ix1 r) := by
  have e : (V m c main_v0 : S8192x1.Idx → BitVec 32)
      = shapeCast S8192x1 (m ((c : Thread nD τ).loc main_arg0)) shapeCasts_S8192_S8192x1 := by
    show StableHlo.after hostOps0 (fun b => m (c, b)) (Proc.devRef .tc main_v0) = _
    after_results
    rfl
  rw [e]
  exact shapeCast_a_a1_apply _ _ r 0

theorem V_v1_apply (c : Dev nD) (q : Fin 8192) :
    (V m c main_v1 : S1x8192.Idx → BitVec 32) (ix2 0 q) = m ((c : Thread nD τ).loc main_arg0) (ix1 q) := by
  have e : (V m c main_v1 : S1x8192.Idx → BitVec 32)
      = shapeCast S1x8192 (m ((c : Thread nD τ).loc main_arg0)) shapeCasts_S8192_S1x8192 := by
    show StableHlo.after hostOps0 (fun b => m (c, b)) (Proc.devRef .tc main_v1) = _
    after_results
    rfl
  rw [e]
  exact shapeCast_a_1a_apply _ _ 0 q

/-! ## The row normalisation, over any feature array -/

/-- The squared row sums as the program computes them. -/
def sqT (X : FVec Ideal S8192x512 .f32) : FVec Ideal S8192 .f32 :=
  Host.reduceAdd (mulf X X) (constant (F := Ideal) S_ .f32 0x00000000#32) reducesTo_S8192x512_S8192_d1 h_S_

/-- The clamped row norms as the program computes them, a column. -/
def nrmT (X : FVec Ideal S8192x512 .f32) : FVec Ideal S8192x1 .f32 :=
  maximumf (Host.sqrt (broadcastInDim S8192x1 ![0] bcast_S8192_S8192x1_0 (sqT X)))
    (broadcastInDim S8192x1 ![] bcast_S_S8192x1 (constant (F := Ideal) S_ .f32 0x322BCC77#32))

/-- The row-normalised array as the program computes it. -/
def hatT (X : FVec Ideal S8192x512 .f32) : FVec Ideal S8192x512 .f32 :=
  Host.divf X (broadcastInDim S8192x512 ![0, 1] bcast_S8192x1_S8192x512_0_1 (nrmT X))

theorem sqT_apply (X : FVec Ideal S8192x512 .f32) (r : Fin 8192) :
    sqT X (ix1 r) = ∑ d : Fin 512, X (ix2 r d) * X (ix2 r d) := by
  have hR : S8192x512.Reduces [1] S8192 := by decide
  unfold sqT
  rw [hostReduceAdd_apply, Ideal.hostReduceAdd_single reducesTo_S8192x512_S8192_d1 hR, constant_apply,
    Ideal.ofBits_zero_f32, zero_add]
  refine Finset.sum_congr rfl fun k _ => ?_
  show mulf X X (hR.lift (ix1 r) k) = mulf X X (ix2 r k)
  exact congrArg (mulf X X) (funext fun a => Fin.ext (by match a with | ⟨0, _⟩ => rfl | ⟨1, _⟩ => rfl))

theorem nrmT_apply (X : FVec Ideal S8192x512 .f32) (r : Fin 8192) (z : Fin 1) :
    nrmT X (ix2 r z) = Cert.Spec.nrm X r := by
  unfold nrmT
  show max (Ideal.sqrt (broadcastInDim S8192x1 ![0] bcast_S8192_S8192x1_0 (sqT X) (ix2 r z)))
      (broadcastInDim S8192x1 ![] bcast_S_S8192x1 (constant (F := Ideal) S_ .f32 0x322BCC77#32) (ix2 r z)) = _
  rw [broadcastInDim_apply _ bcast_S8192_S8192x1_0 (sqT X) (ix2 r z) (ix1 r) (fun a => match a with
      | ⟨0, _⟩ => by show r.val = if (8192 : Nat) = 1 then 0 else r.val; rw [if_neg (by decide)]),
    broadcastInDim_scalar_apply, sqT_apply, constant_apply]
  rfl

theorem hatT_apply (X : FVec Ideal S8192x512 .f32) (r : Fin 8192) (d : Fin 512) :
    hatT X (ix2 r d) = Cert.Spec.hat X r d := by
  unfold hatT
  rw [hostDivf_apply, broadcastInDim_apply _ bcast_S8192x1_S8192x512_0_1 (nrmT X) (ix2 r d) (ix2 r (0 : Fin 1))
    (fun a => match a with
      | ⟨0, _⟩ => by show r.val = if (8192 : Nat) = 1 then 0 else r.val; rw [if_neg (by decide)]
      | ⟨1, _⟩ => by show 0 = if (1 : Nat) = 1 then 0 else d.val; rw [if_pos rfl]), nrmT_apply]
  rfl

/-! ## The normalised second feature array as the region finds it -/

theorem V_v10_apply (c : Dev nD) (r : Fin 8192) (d : Fin 512) :
    (V m c main_v10 : S8192x512.Idx → EReal) (ix2 r d)
      = Cert.Spec.hat (m ((c : Thread nD τ).loc main_arg2)) r d := by
  have e : (V m c main_v10 : S8192x512.Idx → EReal)
      = truncf .bf16 (hatT (m ((c : Thread nD τ).loc main_arg2))) bitsLt_bf16_f32 := by
    show StableHlo.after hostOps0 (fun b => m (c, b)) (Proc.devRef .tc main_v10) = _
    after_results
    rfl
  rw [e, truncf_apply, hatT_apply]

/-! ## The loss from the column of row losses -/

/-- A sum over the one-axis index set is the sum over its coordinate. -/
theorem sum_rows (f : S8192.Idx → EReal) : ∑ j : S8192.Idx, f j = ∑ r : Fin 8192, f (ix1 r) := by
  let e : S8192.Idx ≃ Fin 8192 := ⟨fun j => j 0, ix1, fun j => (eq_ix1 j).symm, fun _ => rfl⟩
  rw [← Equiv.sum_comp e.symm f]
  rfl

/-- The operations after the region, applied to a column. -/
def tailT (Y : FVec Ideal S8192x1 .f32) : FVec Ideal S_ .f32 :=
  Host.negf (Host.divf
    (Host.reduceAdd (shapeCast S8192 Y shapeCasts_S8192x1_S8192) (constant (F := Ideal) S_ .f32 0x00000000#32)
      reducesTo_S8192_S_d0 h_S_)
    (constant (F := Ideal) S_ .f32 0x46000000#32))

theorem tailT_eq (Y : FVec Ideal S8192x1 .f32) :
    tailT Y = fun _ => -(Ideal.div (∑ r : Fin 8192, Y (ix2 r 0)) Cert.Spec.rows) := by
  funext i
  unfold tailT
  show -(Ideal.div (Host.reduceAdd (shapeCast S8192 Y shapeCasts_S8192x1_S8192)
      (constant (F := Ideal) S_ .f32 0x00000000#32) reducesTo_S8192_S_d0 h_S_ i) (Ideal.ofBits .f32 0x46000000#32)) = _
  have e : ∀ r : Fin 8192, shapeCast S8192 Y shapeCasts_S8192x1_S8192 (ix1 r) = Y (ix2 r (0 : Fin 1)) :=
    fun r => shapeCast_a1_a_apply Y _ r
  rw [hostReduceAdd_apply, Ideal.hostReduceAdd_total reducesTo_S8192_S_d0 (fun b => b.elim0), constant_apply,
    Ideal.ofBits_zero_f32, zero_add, sum_rows]
  simp only [e]
  rfl

theorem tail_loss (c : Dev nD) (X : S8192x1.Idx → EReal) (hX : (dats m 0 c).arrAt 5 cfg0.N = X) :
    Pipeline.afterTail₀ cfgs (dats m) 0 (V0 m) [hostOps1] c main_v15
      = fun _ => -(Ideal.div (∑ r : Fin 8192, X (ix2 r 0)) Cert.Spec.rows) := by
  have hW : Pipeline.withArrays spec0 c (V0 m c) (fun w => (dats m 0 c).arrAt w cfg0.N) (Proc.devRef .tc main_v11_1) = X :=
    (Pipeline.withArrays_arr spec0 launch0.win.arr_inj c (V0 m c) (fun w => (dats m 0 c).arrAt w cfg0.N) 5).trans hX
  have e : Pipeline.afterTail₀ cfgs (dats m) 0 (V0 m) [hostOps1] c main_v15
      = tailT (Pipeline.withArrays spec0 c (V0 m c) (fun w => (dats m 0 c).arrAt w cfg0.N) (Proc.devRef .tc main_v11_1)) := by
    unfold Pipeline.afterTail₀
    show StableHlo.after hostOps1 _ (Proc.devRef .tc main_v15) = _
    after_results
    rfl
  rw [e, hW]
  exact tailT_eq X

end Cert.KernelIdeal.HostSide

end
-- ==== Proof.Invariant.lean ====
/-
  What the two output windows' staging buffers hold after a grid point, over the launched argument arrays: the
  induction of Induct.lean with the host's preparation of the arrays (HostSide.lean) put in — the resident array
  is the row-normalised second feature array, the two label arrays are the labels reshaped.
-/
import proofs.«428366_j17231408791669_3_alg».proof.Proof.Induct
import proofs.«428366_j17231408791669_3_alg».proof.Proof.HostSide

set_option maxRecDepth 16384

noncomputable section

open Idealize.ShloMosaic Idealize.ShloMosaic.TcCoe Idealize.SL.Sem Idealize.ShloMosaic.ValueIdx

namespace Cert.KernelIdeal.Invariant

open Cert.KernelIdeal Cert.KernelIdeal.Gen Cert.KernelIdeal.Pieces Cert.KernelIdeal.Steps Cert.KernelIdeal.Blocks

variable (m : (ℓ : Loc nD τ sig) → Buf (Elt Ideal) ℓ)

/-- The three argument arrays as launched. -/
abbrev lab (c : Dev nD) : Cert.Spec.SL.Idx → BitVec 32 := m ((c : Thread nD τ).loc main_arg0)
abbrev fa (c : Dev nD) : Cert.Spec.SA.Idx → EReal := m ((c : Thread nD τ).loc main_arg1)
abbrev fb (c : Dev nD) : Cert.Spec.SA.Idx → EReal := m ((c : Thread nD τ).loc main_arg2)

/-- After point `t` the cosine tile's staging buffer holds the cosine matrix at the point's rows and columns. -/
theorem tile_at (c : Dev nD) (t : Fin cfg0.N) (p : Fin 512) (q : Fin 2048) :
    (outsAt0 m c t.val t.isLt).1 (ix2 p q)
      = Cert.Spec.cosv (fa m c) (fb m c) (row (t.val / 4) (div4 t) p) (col (t.val % 4) (mod4 t) q) :=
  (Induct.inv m c (HostSide.V_v10_apply m c) (HostSide.V_v0_apply m c) (HostSide.V_v1_apply m c) t.val t.isLt).tile p q

/-- After the last column block of a row block the row-loss staging buffer holds the row losses of its rows. -/
theorem loss_at (c : Dev nD) (t : Fin cfg0.N) (h3 : t.val % 4 = 3) (p : Fin 512) :
    (outsAt0 m c t.val t.isLt).2.1 (ix2 p 0)
      = Cert.Spec.rowl (lab m c) (fa m c) (fb m c) (row (t.val / 4) (div4 t) p) :=
  Induct.loss_of_inv m c (HostSide.V_v10_apply m c) (HostSide.V_v0_apply m c) (HostSide.V_v1_apply m c) t h3 p

end Cert.KernelIdeal.Invariant

end
-- ==== Proof.Final.lean ====
/-
  From blocks to the arrays.  After each grid point the cosine tile's staging buffer is written back to rows
  512·(t/4) …, columns 2048·(t%4) … of the [8192, 8192] result, and after the last column block of a row block the
  row-loss staging buffer is written back to rows 512·(t/4) … of the [8192, 1] result.  Each write-back writes the
  corresponding block of ONE function of the argument arrays (the cosine matrix; the row losses), and the blocks of
  the writing points tile each array: row r, column c lies in the block of point 4·(r/512) + c/2048, and row r of
  the loss column in the block of point 4·(r/512) + 3.  So each array ends holding that function.
-/
import proofs.«428366_j17231408791669_3_alg».proof.Proof.Invariant
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Steps Cert.KernelIdeal.Blocks Cert.KernelIdeal.Invariant

variable (m : (ℓ : Loc nD τ sig) → Buf (Elt Ideal) ℓ)

/-- The cosine matrix as contents of the first result array. -/
abbrev Gcos (c : Dev nD) : S8192x8192.Idx → EReal := fun i => Cert.Spec.cosv (fa m c) (fb m c) (i 0) (i 1)

/-- The row losses as contents of the second result array. -/
abbrev Growl (c : Dev nD) : S8192x1.Idx → EReal := fun i => Cert.Spec.rowl (lab m c) (fa m c) (fb m c) (i 0)

/-- What point `t` writes back of the cosine tile is block `t` of the cosine matrix. -/
theorem flushed4_eq (c : Dev nD) (t : Fin cfg0.N) :
    (dats m 0 c).flushed 4 t = ((cfg0.win 4).blk t).view.read (Elt Ideal) (Gcos m c) := by
  show (cfg0.win 4).cut (grid0.coords t) ((dats m 0 c).after 4 t) = _
  rw [after0_4]
  funext y
  rw [View.read_apply]
  show (outsAt0 m c t.val t.isLt).1 ((cfg0.win 4).xinj (grid0.coords t) y) = Gcos m c _
  have hy : (cfg0.win 4).xinj (grid0.coords t) y
      = ix2 (⟨(y 0).val, (y 0).isLt⟩ : Fin 512) (⟨(y 1).val, (y 1).isLt⟩ : Fin 2048) := by
    funext a
    match a with
    | ⟨0, _⟩ => rfl
    | ⟨1, _⟩ => rfl
  rw [hy, tile_at]
  refine congr (congrArg (Cert.Spec.cosv (fa m c) (fb m c)) (Fin.ext ?_)) (Fin.ext ?_)
  · show 512 * (t.val / 4) + (y 0).val = win0_4.index t 0 * 512 + 1 * (y 0).val
    rw [(idx4 t).1]; omega
  · show 2048 * (t.val % 4) + (y 1).val = win0_4.index t 1 * 2048 + 1 * (y 1).val
    rw [(idx4 t).2]; omega

/-- What a writing point `t` writes back of the row losses is block `t` of the row losses. -/
theorem flushed5_eq (c : Dev nD) (t : Fin cfg0.N) (hf : (cfg0.win 5).flush t = true) :
    (dats m 0 c).flushed 5 t = ((cfg0.win 5).blk t).view.read (Elt Ideal) (Growl m c) := by
  have h3 : t.val % 4 = 3 := (flush0_5 t).mp hf
  show (cfg0.win 5).cut (grid0.coords t) ((dats m 0 c).after 5 t) = _
  rw [after0_5]
  funext y
  rw [View.read_apply]
  show (outsAt0 m c t.val t.isLt).2.1 ((cfg0.win 5).xinj (grid0.coords t) y) = Growl m c _
  have hy : (cfg0.win 5).xinj (grid0.coords t) y = ix2 (⟨(y 0).val, (y 0).isLt⟩ : Fin 512) (0 : Fin 1) := by
    funext a
    match a with
    | ⟨0, _⟩ => rfl
    | ⟨1, _⟩ =>
      have h : (y 1).val < 1 := (y 1).isLt
      exact Fin.ext (show (y 1).val = 0 by omega)
  rw [hy, loss_at m c t h3]
  refine congrArg (Cert.Spec.rowl (lab m c) (fa m c) (fb m c)) (Fin.ext ?_)
  show 512 * (t.val / 4) + (y 0).val = win0_5.index t 0 * 512 + 1 * (y 0).val
  rw [(idx5 t).1]; omega

/-- The first result array ends holding the cosine matrix: row `r`, column `c` is written by point
    `4·(r/512) + c/2048`. -/
theorem final_cos (c : Dev nD) :
    (dats m 0 c).arrAt 4 cfg0.N = (fun i => Cert.Spec.cosv (fa m c) (fb m c) (i 0) (i 1) : S8192x8192.Idx → EReal) :=
  (dats m 0 c).arrAt_eq_of_cover 4 (Gcos m c) (fun t _ => flushed4_eq m c t) fun i => by
    have h0 : (i 0 : Nat) < 8192 := (i 0).isLt
    have h1 : (i 1 : Nat) < 8192 := (i 1).isLt
    obtain ⟨t, ht⟩ : ∃ t : Fin cfg0.N, t.val = 4 * ((i 0 : Nat) / 512) + (i 1 : Nat) / 2048 :=
      ⟨⟨4 * ((i 0 : Nat) / 512) + (i 1 : Nat) / 2048, by rw [N64]; omega⟩, rfl⟩
    have e0 : t.val / 4 = (i 0 : Nat) / 512 := by rw [ht]; omega
    have e1 : t.val % 4 = (i 1 : Nat) / 2048 := by rw [ht]; omega
    refine ⟨t, flush0_4 t, ?_⟩
    show i ∈ ((View.whole main_v11_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(idx4 t).1, e0]; omega
    | ⟨1, _⟩ =>
      show win0_4.index t 1 * 2048 ≤ (i 1 : Nat) ∧ (i 1 : Nat) < win0_4.index t 1 * 2048 + 2048
      rw [(idx4 t).2, e1]; omega

/-- The second result array ends holding the row losses: row `r` is written by point `4·(r/512) + 3`. -/
theorem final_rowl (c : Dev nD) :
    (dats m 0 c).arrAt 5 cfg0.N = (fun i => Cert.Spec.rowl (lab m c) (fa m c) (fb m c) (i 0) : S8192x1.Idx → EReal) :=
  (dats m 0 c).arrAt_eq_of_cover 5 (Growl m c) (flushed5_eq m c) fun i => by
    have h0 : (i 0 : Nat) < 8192 := (i 0).isLt
    have h1 : (i 1 : Nat) < 1 := (i 1).isLt
    obtain ⟨t, ht⟩ : ∃ t : Fin cfg0.N, t.val = 4 * ((i 0 : Nat) / 512) + 3 :=
      ⟨⟨4 * ((i 0 : Nat) / 512) + 3, by rw [N64]; omega⟩, rfl⟩
    have e0 : t.val / 4 = (i 0 : Nat) / 512 := by rw [ht]; omega
    have e1 : t.val % 4 = 3 := by rw [ht]; omega
    refine ⟨t, (flush0_5 t).mpr e1, ?_⟩
    show i ∈ ((View.whole main_v11_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(idx5 t).1, e0]; omega
    | ⟨1, _⟩ =>
      show win0_5.index t 1 * 1 ≤ (i 1 : Nat) ∧ (i 1 : Nat) < win0_5.index t 1 * 1 + 1
      rw [(idx5 t).2]; omega

end Cert.KernelIdeal.Final

end
-- ==== Proof.KernelRun.lean ====
/-
  The idealised kernel's run, read: from any memory, every weakly fair execution ends with the second result array
  at the cosine matrix of the specification, the first at its loss, and the three argument arrays as launched.
  The region leaves its two result arrays as Final.lean says; the host operations after it (reshape, sum, divide by
  the row count, negate) turn the row losses into the loss (HostSide.lean).
-/
import proofs.«428366_j17231408791669_3_alg».proof.Proof.Final
import proofs.«428366_j17231408791669_3_alg».proof.Proof.HostSide

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Invariant

variable (m : (ℓ : Loc nD τ sig) → Buf (Elt Ideal) ℓ) (ρ : Dev nD → PrngReg)

theorem run_spec :
    θ_run (defs (F := Ideal)) (onTc (τ := τ) (main (F := Ideal))) ⟨m, fun _ => 0, ρ⟩ fun r => ∀ c : Dev nD,
      r.2.mem ((c.tc : Thread nD τ).loc main_v15)
          = (fun _ => Cert.Spec.loss (lab m c) (fa m c) (fb m c))
      ∧ r.2.mem ((c.tc : Thread nD τ).loc main_v11_0)
          = (fun i => Cert.Spec.cosv (fa m c) (fb m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans
        (HostSide.tail_loss m c _ (Final.final_rowl m c)),
      ((h c).1 4).trans (Final.final_cos m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.KernelRun

end
-- ==== Proof.RefSide.lean ====
/-
  The reference program read back: its run ends with the cosine matrix and the loss of Spec.lean.
-/
import proofs.«428366_j17231408791669_3_alg».proof.Proof.Spec
import proofs.«428366_j17231408791669_3_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Idealize.ShloMosaic.TcCoe Idealize.SL.Sem Cert.ReferenceIdeal
open Cert.ReferenceIdeal.Read

/-- A select on the bit of a word equality is the conditional on that equality. -/
theorem select_cmpi_eq {α : Type} (a b : BitVec 32) (x y : α) :
    Scalar.select (IntOp.cmpi .eq a b) x y = if a = b then x else y := by
  by_cases h : a = b
  · subst h
    have e : IntOp.cmpi .eq a a = 1#1 := by simp [IntOp.cmpi]
    rw [if_pos rfl, e]; exact select_one x y
  · have e : IntOp.cmpi .eq a b = 0#1 := by
      have hb : (a == b) = false := beq_eq_false_iff_ne.mpr h
      show BitVec.ofBool (a == b) = 0#1
      rw [hb]; rfl
    rw [if_neg h, e]; exact select_zero x y

/-! ## The squared row sums and the clamped norms -/

theorem sq_A (x : FVec Ideal S8192x512 .f32) (r : Fin 8192) :
    val_main_v1 (F := Ideal) x (ix1 r) = ∑ d : Fin 512, x (ix2 r d) * x (ix2 r d) := by
  have e : ∀ k : Fin 512, idx_main_v1 (ix1 r) k = ix2 r k := fun k =>
    funext fun a => Fin.ext (by match a with | ⟨0, _⟩ => rfl | ⟨1, _⟩ => rfl)
  rw [val_main_v1_apply]
  simp only [val_main_cst_apply, val_main_v0_apply, e, Ideal.ofBits_def, Ideal.ofBits_zero_f32, zero_add, Ideal.mulf_def]

theorem nrm_A (x : FVec Ideal S8192x512 .f32) (r : Fin 8192) (z : Fin 1) :
    val_main_v5 (F := Ideal) x (ix2 r z) = Cert.Spec.nrm x r := by
  have e2 : idx_main_v2 (ix2 r z) = ix1 r := funext fun a => Fin.ext (by match a with | ⟨0, _⟩ => rfl)
  rw [val_main_v5_apply, val_main_v3_apply, val_main_v2_apply, val_main_v4_apply, val_main_cst_0_apply, e2, sq_A]
  simp only [Ideal.ofBits_def, Ideal.maximumf_def, Ideal.hostUnary_sqrt_def]
  rfl

theorem hat_A (x : FVec Ideal S8192x512 .f32) (r : Fin 8192) (d : Fin 512) :
    val_main_v7 (F := Ideal) x (ix2 r d) = Cert.Spec.hat x r d := by
  have e6 : idx_main_v6 (ix2 r d) = ix2 r (0 : Fin 1) :=
    funext fun a => Fin.ext (by match a with | ⟨0, _⟩ => rfl | ⟨1, _⟩ => rfl)
  rw [val_main_v7_apply, val_main_v6_apply, e6, nrm_A]
  simp only [Ideal.hostDivf_def]
  rfl

theorem sq_B (x : FVec Ideal S8192x512 .f32) (r : Fin 8192) :
    val_main_v9 (F := Ideal) x (ix1 r) = ∑ d : Fin 512, x (ix2 r d) * x (ix2 r d) := by
  have e : ∀ k : Fin 512, idx_main_v9 (ix1 r) k = ix2 r k := fun k =>
    funext fun a => Fin.ext (by match a with | ⟨0, _⟩ => rfl | ⟨1, _⟩ => rfl)
  rw [val_main_v9_apply]
  simp only [val_main_cst_1_apply, val_main_v8_apply, e, Ideal.ofBits_def, Ideal.ofBits_zero_f32, zero_add, Ideal.mulf_def]

theorem nrm_B (x : FVec Ideal S8192x512 .f32) (r : Fin 8192) (z : Fin 1) :
    val_main_v13 (F := Ideal) x (ix2 r z) = Cert.Spec.nrm x r := by
  have e2 : idx_main_v10 (ix2 r z) = ix1 r := funext fun a => Fin.ext (by match a with | ⟨0, _⟩ => rfl)
  rw [val_main_v13_apply, val_main_v11_apply, val_main_v10_apply, val_main_v12_apply, val_main_cst_2_apply, e2, sq_B]
  simp only [Ideal.ofBits_def, Ideal.maximumf_def, Ideal.hostUnary_sqrt_def]
  rfl

theorem hat_B (x : FVec Ideal S8192x512 .f32) (r : Fin 8192) (d : Fin 512) :
    val_main_v15 (F := Ideal) x (ix2 r d) = Cert.Spec.hat x r d := by
  have e6 : idx_main_v14 (ix2 r d) = ix2 r (0 : Fin 1) :=
    funext fun a => Fin.ext (by match a with | ⟨0, _⟩ => rfl | ⟨1, _⟩ => rfl)
  rw [val_main_v15_apply, val_main_v14_apply, e6, nrm_B]
  simp only [Ideal.hostDivf_def]
  rfl

/-! ## The cosine matrix, its exponential, the masked exponential -/

theorem cos_at (a1 a2 : FVec Ideal S8192x512 .f32) (r c : Fin 8192) :
    val_main_v16 (F := Ideal) a1 a2 (ix2 r c) = Cert.Spec.cosv a1 a2 r c := by
  have el : ∀ k : Fin 512, lidx_main_v16 (ix2 r c) k = ix2 r k := fun k =>
    funext fun a => Fin.ext (by match a with | ⟨0, _⟩ => rfl | ⟨1, _⟩ => rfl)
  have er : ∀ k : Fin 512, ridx_main_v16 (ix2 r c) k = ix2 c k := fun k =>
    funext fun a => Fin.ext (by match a with | ⟨0, _⟩ => rfl | ⟨1, _⟩ => rfl)
  rw [val_main_v16_apply]
  simp only [el, er, hat_A, hat_B]
  rfl

theorem ev_at (a1 a2 : FVec Ideal S8192x512 .f32) (r c : Fin 8192) :
    val_main_v24 (F := Ideal) a1 a2 (ix2 r c) = Cert.Spec.ev a1 a2 r c := by
  rw [val_main_v24_apply, val_main_v18_apply, val_main_v17_apply, val_main_cst_3_apply, cos_at]
  simp only [Ideal.ofBits_def, Ideal.hostDivf_def, Ideal.hostUnary_exp_def]
  rfl

theorem masked_at (a0 : IVec S8192 32) (a1 a2 : FVec Ideal S8192x512 .f32) (r c : Fin 8192) :
    val_main_v25 (F := Ideal) a0 a1 a2 (ix2 r c)
      = if a0 (ix1 r) = a0 (ix1 c) then Cert.Spec.ev a1 a2 r c else 0 := by
  have e21 : idx_main_v19 (idx_main_v21 (ix2 r c)) = ix1 r :=
    funext fun a => Fin.ext (by match a with | ⟨0, _⟩ => rfl)
  have e22 : idx_main_v20 (idx_main_v22 (ix2 r c)) = ix1 c :=
    funext fun a => Fin.ext (by match a with | ⟨0, _⟩ => rfl)
  rw [val_main_v25_apply, val_main_v23_apply, val_main_v21_apply, val_main_v19_apply, val_main_v22_apply,
    val_main_v20_apply, val_main_call0_v1_apply, val_main_call0_v0_apply, val_main_cst_4_apply, e21, e22, ev_at,
    select_cmpi_eq]
  simp only [Ideal.ofBits_def, Ideal.ofBits_zero_f32]

/-! ## The row sums and the row losses -/

theorem num_at (a0 : IVec S8192 32) (a1 a2 : FVec Ideal S8192x512 .f32) (r : Fin 8192) :
    val_main_v26 (F := Ideal) a0 a1 a2 (ix1 r) = Cert.Spec.num a0 a1 a2 r := by
  have e : ∀ k : Fin 8192, idx_main_v26 (ix1 r) k = ix2 r k := fun k =>
    funext fun a => Fin.ext (by match a with | ⟨0, _⟩ => rfl | ⟨1, _⟩ => rfl)
  rw [val_main_v26_apply]
  simp only [val_main_cst_5_apply, e, masked_at, Ideal.ofBits_def, Ideal.ofBits_zero_f32, zero_add]
  rfl

theorem den_at (a1 a2 : FVec Ideal S8192x512 .f32) (r : Fin 8192) :
    val_main_v27 (F := Ideal) a1 a2 (ix1 r) = Cert.Spec.den a1 a2 r := by
  have e : ∀ k : Fin 8192, idx_main_v27 (ix1 r) k = ix2 r k := fun k =>
    funext fun a => Fin.ext (by match a with | ⟨0, _⟩ => rfl | ⟨1, _⟩ => rfl)
  rw [val_main_v27_apply]
  simp only [val_main_cst_6_apply, e, ev_at, Ideal.ofBits_def, Ideal.ofBits_zero_f32, zero_add]
  rfl

theorem rowl_at (a0 : IVec S8192 32) (a1 a2 : FVec Ideal S8192x512 .f32) (r : Fin 8192) :
    val_main_v29 (F := Ideal) a0 a1 a2 (ix1 r) = Cert.Spec.rowl a0 a1 a2 r := by
  rw [val_main_v29_apply, val_main_v28_apply, num_at, den_at]
  simp only [Ideal.hostDivf_def, Ideal.hostUnary_log_def]
  rfl

/-- The reference's row losses are the specification's, row by row. -/
theorem rowl_eq (a0 : IVec S8192 32) (a1 a2 : FVec Ideal S8192x512 .f32) :
    val_main_v29 (F := Ideal) a0 a1 a2 = fun i => Cert.Spec.rowl a0 a1 a2 (i 0) := by
  funext i
  obtain ⟨r, rfl⟩ : ∃ r : Fin 8192, i = ix1 r := ⟨i 0, eq_ix1 i⟩
  exact rowl_at a0 a1 a2 r

/-- The reference's second result is the specification's cosine matrix. -/
theorem cos_eq (a1 a2 : FVec Ideal S8192x512 .f32) :
    val_main_v16 (F := Ideal) a1 a2 = fun i => Cert.Spec.cosv a1 a2 (i 0) (i 1) := by
  funext i
  obtain ⟨r, c, rfl⟩ : ∃ (r c : Fin 8192), i = ix2 r c := ⟨i 0, i 1, eq_ix2 i⟩
  exact cos_at a1 a2 r c

/-! ## The loss -/

/-- A sum over the one-axis index set is the sum over its coordinate. -/
theorem sum_rows (f : S8192.Idx → EReal) : ∑ j : S8192.Idx, f j = ∑ r : Fin 8192, f (ix1 r) := by
  let e : S8192.Idx ≃ Fin 8192 := ⟨fun j => j 0, ix1, fun j => (eq_ix1 j).symm, fun _ => rfl⟩
  rw [← Equiv.sum_comp e.symm f]
  rfl

/-- The reference's first result is the specification's loss. -/
theorem loss_eq (a0 : IVec S8192 32) (a1 a2 : FVec Ideal S8192x512 .f32) :
    val_main_v32 (F := Ideal) a0 a1 a2 = fun _ => Cert.Spec.loss a0 a1 a2 := by
  funext i
  rw [val_main_v32_apply, val_main_v31_apply, val_main_v30_apply, val_main_cst_7_apply, val_main_cst_8_apply,
    rowl_eq, sum_rows]
  simp only [Ideal.ofBits_def, Ideal.ofBits_zero_f32, zero_add, Ideal.hostDivf_def, Ideal.hostNegf_def,
    Ideal.negf_def]
  rfl

/-! ## The run -/

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
          = (fun _ => Cert.Spec.loss (m ((c.tc : Thread nD τ).loc main_arg0)) (m ((c.tc : Thread nD τ).loc main_arg1)) (m ((c.tc : Thread nD τ).loc main_arg2)))
      ∧ r.2.mem ((c.tc : Thread nD τ).loc main_v16)
          = (fun i => Cert.Spec.cosv (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c =>
    ⟨(h c).1.trans ((val_main_v32_eq _ _ _).trans (loss_eq _ _ _)),
     (h c).2.1.trans ((val_main_v16_eq _ _).trans (cos_eq _ _)),
     (h c).2.2⟩) (Cert.ReferenceIdeal.Value.run (F := Ideal) m ρ)

end Cert.ReferenceIdeal.RefValue

end
-- ==== Proof.lean ====
/-
  The certificate's five claims.

  The kernel computes an InfoNCE-style loss and the cosine matrix on a 16 × 4 grid: per row block it caches the
  row-normalised rows of the first feature array, per column block it multiplies them with 2048 rows of the
  row-normalised second array, writes the cosine tile, and carries two row sums of exp (cos · k) across the four
  column blocks — all terms, and the terms whose column has the row's label — from zero; after the fourth block it
  writes log (masked sum / sum).  The host takes the mean of those and negates it.  The reference computes the same
  with one matrix product and whole-row sums, dividing the cosines by the temperature word where the kernel
  multiplies by the constant named its reciprocal.

  frame (three):   the generated frames of the two kernel programs; the reference's run with the results dropped.
  preserves:       the one named constant denotes the reciprocal of the reference's temperature word, by the table.
  algebraic:       both runs end at the specification's loss and cosine matrix (Spec.lean): the kernel's by the
                   induction over the grid (Induct.lean) and the covering of the two result arrays by the flushed
                   blocks (Final.lean); the reference's by reading its run operation by operation (RefSide.lean).
                   The carried sums meet the whole-row sums because addition on the extended reals is commutative and
                   associative; no finiteness of the inputs is used.
-/
import proofs.«428366_j17231408791669_3_alg».proof.Defs
import proofs.«428366_j17231408791669_3_alg».proof.Proof.Gen.Kernel
import proofs.«428366_j17231408791669_3_alg».proof.Proof.Gen.Kernel.Frame
import proofs.«428366_j17231408791669_3_alg».proof.Proof.Gen.KernelIdeal
import proofs.«428366_j17231408791669_3_alg».proof.Proof.Gen.KernelIdeal.Frame
import proofs.«428366_j17231408791669_3_alg».proof.Proof.Gen.ReferenceIdeal
import proofs.«428366_j17231408791669_3_alg».proof.Proof.Gen.Pre_finite_inputs
import proofs.«428366_j17231408791669_3_alg».proof.Proof.KernelRun
import proofs.«428366_j17231408791669_3_alg».proof.Proof.RefSide
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.RefValue.run_spec m ρ)

/-- The ledger's one entry: the table gives the named constant the reciprocal of the temperature word's value. -/
theorem preserves : Cert.preserves_Kernel_KernelIdeal :=
  IdealRules.named_const.statement Cert.KernelIdeal.κ "inv_temperature" .f32 0x41649249#32
    ((134217728 / 9395241 : ℝ) : EReal) rfl

/-- Both idealised programs, from memories agreeing on the arguments, end at the specification's two results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.KernelRun.run_spec m ρ, ?_⟩
  refine (θ_run Cert.ReferenceIdeal.defs _ _).mono (fun _ h c => ?_) (Cert.ReferenceIdeal.RefValue.run_spec m' ρ')
  obtain ⟨h1, h2, h3, h4, h5⟩ := h c
  refine ⟨?_, ?_, h3, h4, h5⟩
  · rw [h1, (hagree c).1, (hagree c).2.1, (hagree c).2.2]; rfl
  · rw [h2, (hagree c).2.1, (hagree c).2.2]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
